-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_

variable [Facts]

def fn_part3 {F : FTy → Type} [FloatOps F] (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S512x128 .f32) (main_arg10 : FVec F S128 .f32) (main_arg11 : FVec F S128 .f32) (main_arg12 : FVec F S128 .f32) (main_arg13 : FVec F S128 .f32) (main_arg14 : FVec F S128 .f32) (main_v33 : IVec S_ 1) : IVec S_ 1 :=
  let main_v34 : FVec F S512x128 .f32 := Host.absf main_arg9
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x512 .f32) (main_arg8 : FVec F S512 .f32) (main_arg9 : FVec F S512x128 .f32) (main_arg10 : FVec F S128 .f32) (main_arg11 : FVec F S128 .f32) (main_arg12 : FVec F S128 .f32) (main_arg13 : FVec F S128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x512 .f32 := Host.absf main_arg7
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x512 .f32) (main_arg8 : FVec F S512 .f32) (main_arg9 : FVec F S512x128 .f32) (main_arg10 : FVec F S128 .f32) (main_arg11 : FVec F S128 .f32) (main_arg12 : FVec F S128 .f32) (main_arg13 : FVec F S128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩
abbrev S100000 : Shape := ⟨1, ![100000]⟩
abbrev S1600000x1 : Shape := ⟨2, ![1600000, 1]⟩
abbrev S20000 : Shape := ⟨1, ![20000]⟩
abbrev S100000x1 : Shape := ⟨2, ![100000, 1]⟩
abbrev S20000x1 : Shape := ⟨2, ![20000, 1]⟩
abbrev S1600000x128 : Shape := ⟨2, ![1600000, 128]⟩
abbrev S20000x128 : Shape := ⟨2, ![20000, 128]⟩
abbrev S1x128 : Shape := ⟨2, ![1, 128]⟩
abbrev S2000x128 : Shape := ⟨2, ![2000, 128]⟩
abbrev S2000x1 : Shape := ⟨2, ![2000, 1]⟩
abbrev S1x512 : Shape := ⟨2, ![1, 512]⟩
abbrev S1000x128 : Shape := ⟨2, ![1000, 128]⟩
abbrev S1000x1 : Shape := ⟨2, ![1000, 1]⟩
abbrev S1000 : Shape := ⟨1, ![1000]⟩
abbrev S1000x512 : Shape := ⟨2, ![1000, 512]⟩

abbrev nBuf : Space → Nat
  | .hbm => 75
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S20000, .f32⟩
  | .hbm, ⟨26, _⟩ => ⟨S1600000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S100000, .f32⟩
  | .hbm, ⟨32, _⟩ => ⟨S100000x1, .f32⟩
  | .hbm, ⟨33, _⟩ => ⟨S20000, .f32⟩
  | .hbm, ⟨34, _⟩ => ⟨S20000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S20000x128, .f32⟩
  | .hbm, ⟨48, _⟩ => ⟨S1600000x1, .i32⟩
  | .hbm, ⟨49, _⟩ => ⟨S20000x128, .f32⟩
  | .hbm, ⟨50, _⟩ => ⟨S1x128, .f32⟩
  | .hbm, ⟨51, _⟩ => ⟨S20000x128, .f32⟩
  | .hbm, ⟨52, _⟩ => ⟨S20000x128, .f32⟩
  | .hbm, ⟨53, _⟩ => ⟨S20000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S1x512, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x1, .f32⟩
  | .local _ .vmem, ⟨13, _⟩ => ⟨S1000x1, .f32⟩
  | .local _ .vmem, ⟨14, _⟩ => ⟨S128x128, .f32⟩
  | .local _ .vmem, ⟨15, _⟩ => ⟨S1x128, .f32⟩
  | .local _ .vmem, ⟨16, _⟩ => ⟨S128x512, .f32⟩
  | .local _ .vmem, ⟨17, _⟩ => ⟨S1x512, .f32⟩
  | .local _ .vmem, ⟨18, _⟩ => ⟨S512x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem13_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S100000_S100000x1_0 : S100000.BroadcastsInDim S100000x1 (![0] : Fin 1 → Fin S100000x1.rank)
  bcast_S20000_S20000x1_0 : S20000.BroadcastsInDim S20000x1 (![0] : Fin 1 → Fin S20000x1.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  shapeCasts_S512_S1x512 : S512.ShapeCasts S1x512
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  broadcasts_S1x128_S1000x128 : S1x128.Broadcasts S1000x128
  reduces_S1000x128_S1000 : S1000x128.Reduces [1] S1000
  shapeCasts_S1000_S1000x1 : S1000.ShapeCasts S1000x1
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x128_S512x128_0_0 : ∀ a, (![0, 0] : Fin 2 → Nat) a + S512x128.size a ≤ S512x128.size a
  h_S512x128 : 0 < S512x128.numel
  scatter_S100000_S1600000x1_S1600000_n_0_0_1_wf : ScatterDims.WF S100000 S1600000x1 S1600000 [] [0] [0] 1
  scatter_S20000_S1600000x1_S1600000_n_0_0_1_wf : ScatterDims.WF S20000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  dot_S2000x128_S128x128_S2000x128_1_0_0_1_n_n_wf : DotDims.WF S2000x128 S128x128 S2000x128 [1] [0] [0] [1] [] []
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x128_S1000x128_1_0_0_1_n_n_wf : DotDims.WF S1000x128 S128x128 S1000x128 [1] [0] [0] [1] [] []
  dot_S1000x128_S128x512_S1000x512_1_0_0_1_n_n_wf : DotDims.WF S1000x128 S128x512 S1000x512 [1] [0] [0] [1] [] []
  dot_S1000x512_S512x128_S1000x128_1_0_0_1_n_n_wf : DotDims.WF S1000x512 S512x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S20000x1.size a
  hwx0_1 : ∀ i : grid0.Coords, EltTy.bits .f32 = 32 ∨ (Rect.block (s := S20000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S20000x128.size a
  hwx0_4 : ∀ i : grid0.Coords, EltTy.bits .f32 = 32 ∨ (Rect.block (s := S20000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S100000x1.size a
  hwx1_2 : ∀ i : grid1.Coords, EltTy.bits .f32 = 32 ∨ (Rect.block (s := S100000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S128x512.size a
  hwx1_5 : ∀ i : grid1.Coords, EltTy.bits .f32 = 32 ∨ (Rect.block (s := S128x512) S128x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S512x128.size a
  hwx1_7 : ∀ i : grid1.Coords, EltTy.bits .f32 = 32 ∨ (Rect.block (s := S512x128) S512x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1000x128.size a ≤ S100000x128.size a
  hwx1_13 : ∀ i : grid1.Coords, EltTy.bits .f32 = 32 ∨ (Rect.block (s := S100000x128) S1000x128.size (cc1_transform_13 i) (hinb1_13 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S512x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v45) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v46) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v47) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v48) S1000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩
abbrev S100000 : Shape := ⟨1, ![100000]⟩
abbrev S1600000x1 : Shape := ⟨2, ![1600000, 1]⟩
abbrev S20000 : Shape := ⟨1, ![20000]⟩
abbrev S100000x1 : Shape := ⟨2, ![100000, 1]⟩
abbrev S20000x1 : Shape := ⟨2, ![20000, 1]⟩
abbrev S1600000x128 : Shape := ⟨2, ![1600000, 128]⟩
abbrev S20000x128 : Shape := ⟨2, ![20000, 128]⟩
abbrev S1x128 : Shape := ⟨2, ![1, 128]⟩
abbrev S100000x512 : Shape := ⟨2, ![100000, 512]⟩
abbrev S1x512 : Shape := ⟨2, ![1, 512]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x512, .f32⟩
  | 8 => ⟨S512, .f32⟩
  | 9 => ⟨S512x128, .f32⟩
  | 10 => ⟨S128, .f32⟩
  | 11 => ⟨S128, .f32⟩
  | 12 => ⟨S128, .f32⟩
  | 13 => ⟨S128, .f32⟩
  | 14 => ⟨S128, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S20000, .f32⟩
  | 26 => ⟨S1600000x1, .i32⟩
  | 27 => ⟨S20000, .f32⟩
  | 28 => ⟨S_, .f32⟩
  | 29 => ⟨S20000, .f32⟩
  | 30 => ⟨S20000, .f32⟩
  | 31 => ⟨S100000, .f32⟩
  | 32 => ⟨S100000x1, .f32⟩
  | 33 => ⟨S20000, .f32⟩
  | 34 => ⟨S20000x1, .f32⟩
  | 35 => ⟨S100000x128, .f32⟩
  | 36 => ⟨S100000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S20000x128, .f32⟩
  | 48 => ⟨S1600000x1, .i32⟩
  | 49 => ⟨S20000x128, .f32⟩
  | 50 => ⟨S20000x128, .f32⟩
  | 51 => ⟨S20000x128, .f32⟩
  | 52 => ⟨S20000x128, .f32⟩
  | 53 => ⟨S1x128, .f32⟩
  | 54 => ⟨S20000x128, .f32⟩
  | 55 => ⟨S20000x128, .f32⟩
  | 56 => ⟨S20000x128, .f32⟩
  | 57 => ⟨S20000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S100000x128, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x128, .f32⟩
  | 94 => ⟨S100000x128, .f32⟩
  | 95 => ⟨S_, .f32⟩
  | 96 => ⟨S100000x1, .f32⟩
  | 97 => ⟨S100000x1, .f32⟩
  | 98 => ⟨S100000x1, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S100000x512, .f32⟩
  | 108 => ⟨S1x512, .f32⟩
  | 109 => ⟨S100000x512, .f32⟩
  | 110 => ⟨S100000x512, .f32⟩
  | 111 => ⟨S_, .f32⟩
  | 112 => ⟨S100000x512, .f32⟩
  | 113 => ⟨S100000x512, .f32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S_, .f32⟩
  | 120 => ⟨S100000, .f32⟩
  | 121 => ⟨S100000x1, .f32⟩
  | 122 => ⟨S_, .f32⟩
  | 123 => ⟨S100000x1, .f32⟩
  | 124 => ⟨S100000x1, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S100000x128, .f32⟩
  | 7 => ⟨S100000x128, .f32⟩
  | 8 => ⟨S_, .f32⟩
  | 9 => ⟨S100000x1, .f32⟩
  | 10 => ⟨S100000x1, .f32⟩
  | 11 => ⟨S100000x1, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call0_cst : Ref sig .tc := ⟨.hbm, 111, rfl⟩
abbrev main_call0_v0 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_14 : Ref sig .tc := ⟨.hbm, 119, rfl⟩
abbrev main_v86 : Ref sig .tc := ⟨.hbm, 120, rfl⟩
abbrev main_v87 : Ref sig .tc := ⟨.hbm, 121, rfl⟩
abbrev main_cst_15 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_16 : Ref sig .tc := ⟨.hbm, 128, rfl⟩
abbrev main_v93 : Ref sig .tc := ⟨.hbm, 129, rfl⟩
abbrev main_v94 : Ref sig .tc := ⟨.hbm, 130, rfl⟩
abbrev main_cst_17 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_18 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S100000_S100000x1_0 : S100000.BroadcastsInDim S100000x1 (![0] : Fin 1 → Fin S100000x1.rank)
  bcast_S20000_S20000x1_0 : S20000.BroadcastsInDim S20000x1 (![0] : Fin 1 → Fin S20000x1.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  scatter_S100000_S1600000x1_S1600000_n_0_0_1_wf : ScatterDims.WF S100000 S1600000x1 S1600000 [] [0] [0] 1
  scatter_S20000_S1600000x1_S1600000_n_0_0_1_wf : ScatterDims.WF S20000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  dot_S20000x128_S128x128_S20000x128_1_0_0_1_n_n_wf : DotDims.WF S20000x128 S128x128 S20000x128 [1] [0] [0] [1] [] []
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x512_S100000x512_1_0_0_1_n_n_wf : DotDims.WF S100000x128 S128x512 S100000x512 [1] [0] [0] [1] [] []
  dot_S100000x512_S512x128_S100000x128_1_0_0_1_n_n_wf : DotDims.WF S100000x512 S512x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.NodeBlocks.lean ====
/-
  The node region's output array, read off its proof data.

  The grid has a hundred points; point `t` stages rows `1000 t … 1000 t + 999` of the input array, of the aggregated
  array and of the degree factors, and the whole of each weight matrix and of each bias, scale and shift row, and writes
  back rows `1000 t … 1000 t + 999` of the result. The hundred write-backs tile the result, so if the stored value at
  block row `p`, column `q` of point `t` is `G (1000 t + p, q)` for one whole-array function `G`, the array ends holding `G`.
-/
import proofs.«170928_j38603166057018_1_alg».proof.Proof.KernelIdealFrameP
import Idealize.ShloMosaic.Lib.Pipeline.Value
import Idealize.ShloMosaic.Lib.ValueIdx

set_option maxRecDepth 16384

noncomputable section

namespace Cert.KernelIdeal.NodeValue

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The corner every staged block starts at. -/
theorem origin : (![0, 0] : Fin 2 → Nat) = fun _ => 0 := funext fun a => by fin_cases a <;> rfl

/-- Where each window's block sits at point `t`: the three row-blocked inputs and the output at block row `t`, every
    matrix and every row vector at its one block. -/
theorem block_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = t.val ∧ win1_13.index t (1 : Fin 2) = 0 :=
  (by decide +kernel : ∀ t : Fin grid1.N, _)

theorem point_lt (t : Fin cfg1.N) : t.val < 100 := lt_of_lt_of_eq t.isLt N_1

/-- Row `p` of point `t`'s block is row `1000 t + p` of the array. -/
def row (t : Fin cfg1.N) (p : Fin 1000) : Fin 100000 :=
  ⟨t.val * 1000 + p.val, by have := point_lt t; have := p.isLt; omega⟩

/-- The staged blocks at a point and the arrays they are cut from, at their literal types. -/
abbrev hBlk (c : Dev nD) (t : Fin cfg1.N) : Vec Ideal S1000x128 .f32 := iblk1 V c 0 t
abbrev hArr (c : Dev nD) : S100000x128.Idx → EReal := V c main_arg0
abbrev aggBlk (c : Dev nD) (t : Fin cfg1.N) : Vec Ideal S1000x128 .f32 := iblk1 V c 1 t
abbrev aggArr (c : Dev nD) : S100000x128.Idx → EReal := V c main_v40
abbrev degBlk (c : Dev nD) (t : Fin cfg1.N) : Vec Ideal S1000x1 .f32 := iblk1 V c 2 t
abbrev degArr (c : Dev nD) : S100000x1.Idx → EReal := V c main_v12
abbrev w2Blk (c : Dev nD) (t : Fin cfg1.N) : Vec Ideal S128x128 .f32 := iblk1 V c 3 t
abbrev w2Arr (c : Dev nD) : S128x128.Idx → EReal := V c main_arg5
abbrev b2Blk (c : Dev nD) (t : Fin cfg1.N) : Vec Ideal S1x128 .f32 := iblk1 V c 4 t
abbrev b2Arr (c : Dev nD) : S1x128.Idx → EReal := V c main_v41
abbrev w3Blk (c : Dev nD) (t : Fin cfg1.N) : Vec Ideal S128x512 .f32 := iblk1 V c 5 t
abbrev w3Arr (c : Dev nD) : S128x512.Idx → EReal := V c main_arg7
abbrev b3Blk (c : Dev nD) (t : Fin cfg1.N) : Vec Ideal S1x512 .f32 := iblk1 V c 6 t
abbrev b3Arr (c : Dev nD) : S1x512.Idx → EReal := V c main_v42
abbrev w4Blk (c : Dev nD) (t : Fin cfg1.N) : Vec Ideal S512x128 .f32 := iblk1 V c 7 t
abbrev w4Arr (c : Dev nD) : S512x128.Idx → EReal := V c main_arg9
abbrev b4Blk (c : Dev nD) (t : Fin cfg1.N) : Vec Ideal S1x128 .f32 := iblk1 V c 8 t
abbrev b4Arr (c : Dev nD) : S1x128.Idx → EReal := V c main_v43
abbrev g1Blk (c : Dev nD) (t : Fin cfg1.N) : Vec Ideal S1x128 .f32 := iblk1 V c 9 t
abbrev g1Arr (c : Dev nD) : S1x128.Idx → EReal := V c main_v44
abbrev s1Blk (c : Dev nD) (t : Fin cfg1.N) : Vec Ideal S1x128 .f32 := iblk1 V c 10 t
abbrev s1Arr (c : Dev nD) : S1x128.Idx → EReal := V c main_v45
abbrev g2Blk (c : Dev nD) (t : Fin cfg1.N) : Vec Ideal S1x128 .f32 := iblk1 V c 11 t
abbrev g2Arr (c : Dev nD) : S1x128.Idx → EReal := V c main_v46
abbrev s2Blk (c : Dev nD) (t : Fin cfg1.N) : Vec Ideal S1x128 .f32 := iblk1 V c 12 t
abbrev s2Arr (c : Dev nD) : S1x128.Idx → EReal := V c main_v47

/-- The input block's row `p` is the input array's row `1000 t + p`. -/
theorem hBlk_apply (c : Dev nD) (t : Fin cfg1.N) (p : Fin 1000) (b : Fin 128) :
    hBlk V c t (ix2 p b) = hArr V c (ix2 (row t p) b) := by
  obtain ⟨e0, e1, -⟩ := block_at t
  show V c main_arg0 (((cfg1.win 0).blk t).view.emb (ix2 p b)) = V c main_arg0 (ix2 (row t p) b)
  refine congrArg (V c main_arg0) (funext fun i => Fin.ext ?_)
  match i with
  | ⟨0, _⟩ => show win1_0.index t (0 : Fin 2) * 1000 + 1 * p.val = t.val * 1000 + p.val; omega
  | ⟨1, _⟩ => show win1_0.index t (1 : Fin 2) * 128 + 1 * b.val = b.val; omega

/-- The aggregated block's row `p` is the aggregated array's row `1000 t + p`. -/
theorem aggBlk_apply (c : Dev nD) (t : Fin cfg1.N) (p : Fin 1000) (b : Fin 128) :
    aggBlk V c t (ix2 p b) = aggArr V c (ix2 (row t p) b) := by
  obtain ⟨-, -, e0, e1, -⟩ := block_at t
  show V c main_v40 (((cfg1.win 1).blk t).view.emb (ix2 p b)) = V c main_v40 (ix2 (row t p) b)
  refine congrArg (V c main_v40) (funext fun i => Fin.ext ?_)
  match i with
  | ⟨0, _⟩ => show win1_1.index t (0 : Fin 2) * 1000 + 1 * p.val = t.val * 1000 + p.val; omega
  | ⟨1, _⟩ => show win1_1.index t (1 : Fin 2) * 128 + 1 * b.val = b.val; omega

/-- The degree block's row `p` is the degree array's row `1000 t + p`. -/
theorem degBlk_apply (c : Dev nD) (t : Fin cfg1.N) (p : Fin 1000) (b : Fin 1) :
    degBlk V c t (ix2 p b) = degArr V c (ix2 (row t p) b) := by
  obtain ⟨-, -, -, -, e0, e1, -⟩ := block_at t
  show V c main_v12 (((cfg1.win 2).blk t).view.emb (ix2 p b)) = V c main_v12 (ix2 (row t p) b)
  refine congrArg (V c main_v12) (funext fun i => Fin.ext ?_)
  match i with
  | ⟨0, _⟩ => show win1_2.index t (0 : Fin 2) * 1000 + 1 * p.val = t.val * 1000 + p.val; omega
  | ⟨1, _⟩ => show win1_2.index t (1 : Fin 2) * 1 + 1 * b.val = b.val; omega

/-- The first projection's block is the whole matrix. -/
theorem w2Blk_apply (c : Dev nD) (t : Fin cfg1.N) (a : Fin 128) (b : Fin 128) :
    w2Blk V c t (ix2 a b) = w2Arr V c (ix2 a b) := by
  obtain ⟨-, -, -, -, -, -, e0, e1, -⟩ := block_at t
  show V c main_arg5 (((cfg1.win 3).blk t).view.emb (ix2 a b)) = V c main_arg5 (ix2 a b)
  refine congrArg (V c main_arg5) (funext fun i => Fin.ext ?_)
  match i with
  | ⟨0, _⟩ => show win1_3.index t (0 : Fin 2) * 128 + 1 * a.val = a.val; omega
  | ⟨1, _⟩ => show win1_3.index t (1 : Fin 2) * 128 + 1 * b.val = b.val; omega

/-- The first bias block is the whole row. -/
theorem b2Blk_apply (c : Dev nD) (t : Fin cfg1.N) (a : Fin 1) (b : Fin 128) :
    b2Blk V c t (ix2 a b) = b2Arr V c (ix2 a b) := by
  obtain ⟨-, -, -, -, -, -, -, -, e0, e1, -⟩ := block_at t
  show V c main_v41 (((cfg1.win 4).blk t).view.emb (ix2 a b)) = V c main_v41 (ix2 a b)
  refine congrArg (V c main_v41) (funext fun i => Fin.ext ?_)
  match i with
  | ⟨0, _⟩ => show win1_4.index t (0 : Fin 2) * 1 + 1 * a.val = a.val; omega
  | ⟨1, _⟩ => show win1_4.index t (1 : Fin 2) * 128 + 1 * b.val = b.val; omega

/-- The feed-forward block's first weight block is the whole matrix. -/
theorem w3Blk_apply (c : Dev nD) (t : Fin cfg1.N) (a : Fin 128) (b : Fin 512) :
    w3Blk V c t (ix2 a b) = w3Arr V c (ix2 a b) := by
  obtain ⟨-, -, -, -, -, -, -, -, -, -, e0, e1, -⟩ := block_at t
  show V c main_arg7 (((cfg1.win 5).blk t).view.emb (ix2 a b)) = V c main_arg7 (ix2 a b)
  refine congrArg (V c main_arg7) (funext fun i => Fin.ext ?_)
  match i with
  | ⟨0, _⟩ => show win1_5.index t (0 : Fin 2) * 128 + 1 * a.val = a.val; omega
  | ⟨1, _⟩ => show win1_5.index t (1 : Fin 2) * 512 + 1 * b.val = b.val; omega

/-- Its first bias block is the whole row. -/
theorem b3Blk_apply (c : Dev nD) (t : Fin cfg1.N) (a : Fin 1) (b : Fin 512) :
    b3Blk V c t (ix2 a b) = b3Arr V c (ix2 a b) := by
  obtain ⟨-, -, -, -, -, -, -, -, -, -, -, -, e0, e1, -⟩ := block_at t
  show V c main_v42 (((cfg1.win 6).blk t).view.emb (ix2 a b)) = V c main_v42 (ix2 a b)
  refine congrArg (V c main_v42) (funext fun i => Fin.ext ?_)
  match i with
  | ⟨0, _⟩ => show win1_6.index t (0 : Fin 2) * 1 + 1 * a.val = a.val; omega
  | ⟨1, _⟩ => show win1_6.index t (1 : Fin 2) * 512 + 1 * b.val = b.val; omega

/-- Its second weight block is the whole matrix. -/
theorem w4Blk_apply (c : Dev nD) (t : Fin cfg1.N) (a : Fin 512) (b : Fin 128) :
    w4Blk V c t (ix2 a b) = w4Arr V c (ix2 a b) := by
  obtain ⟨-, -, -, -, -, -, -, -, -, -, -, -, -, -, e0, e1, -⟩ := block_at t
  show V c main_arg9 (((cfg1.win 7).blk t).view.emb (ix2 a b)) = V c main_arg9 (ix2 a b)
  refine congrArg (V c main_arg9) (funext fun i => Fin.ext ?_)
  match i with
  | ⟨0, _⟩ => show win1_7.index t (0 : Fin 2) * 512 + 1 * a.val = a.val; omega
  | ⟨1, _⟩ => show win1_7.index t (1 : Fin 2) * 128 + 1 * b.val = b.val; omega

/-- Its second bias block is the whole row. -/
theorem b4Blk_apply (c : Dev nD) (t : Fin cfg1.N) (a : Fin 1) (b : Fin 128) :
    b4Blk V c t (ix2 a b) = b4Arr V c (ix2 a b) := by
  obtain ⟨-, -, -, -, -, -, -, -, -, -, -, -, -, -, -, -, e0, e1, -⟩ := block_at t
  show V c main_v43 (((cfg1.win 8).blk t).view.emb (ix2 a b)) = V c main_v43 (ix2 a b)
  refine congrArg (V c main_v43) (funext fun i => Fin.ext ?_)
  match i with
  | ⟨0, _⟩ => show win1_8.index t (0 : Fin 2) * 1 + 1 * a.val = a.val; omega
  | ⟨1, _⟩ => show win1_8.index t (1 : Fin 2) * 128 + 1 * b.val = b.val; omega

/-- The first normalisation's scale block is the whole row. -/
theorem g1Blk_apply (c : Dev nD) (t : Fin cfg1.N) (a : Fin 1) (b : Fin 128) :
    g1Blk V c t (ix2 a b) = g1Arr V c (ix2 a b) := by
  obtain ⟨-, -, -, -, -, -, -, -, -, -, -, -, -, -, -, -, -, -, e0, e1, -⟩ := block_at t
  show V c main_v44 (((cfg1.win 9).blk t).view.emb (ix2 a b)) = V c main_v44 (ix2 a b)
  refine congrArg (V c main_v44) (funext fun i => Fin.ext ?_)
  match i with
  | ⟨0, _⟩ => show win1_9.index t (0 : Fin 2) * 1 + 1 * a.val = a.val; omega
  | ⟨1, _⟩ => show win1_9.index t (1 : Fin 2) * 128 + 1 * b.val = b.val; omega

/-- The first normalisation's shift block is the whole row. -/
theorem s1Blk_apply (c : Dev nD) (t : Fin cfg1.N) (a : Fin 1) (b : Fin 128) :
    s1Blk V c t (ix2 a b) = s1Arr V c (ix2 a b) := by
  obtain ⟨-, -, -, -, -, -, -, -, -, -, -, -, -, -, -, -, -, -, -, -, e0, e1, -⟩ := block_at t
  show V c main_v45 (((cfg1.win 10).blk t).view.emb (ix2 a b)) = V c main_v45 (ix2 a b)
  refine congrArg (V c main_v45) (funext fun i => Fin.ext ?_)
  match i with
  | ⟨0, _⟩ => show win1_10.index t (0 : Fin 2) * 1 + 1 * a.val = a.val; omega
  | ⟨1, _⟩ => show win1_10.index t (1 : Fin 2) * 128 + 1 * b.val = b.val; omega

/-- The second normalisation's scale block is the whole row. -/
theorem g2Blk_apply (c : Dev nD) (t : Fin cfg1.N) (a : Fin 1) (b : Fin 128) :
    g2Blk V c t (ix2 a b) = g2Arr V c (ix2 a b) := by
  obtain ⟨-, -, -, -, -, -, -, -, -, -, -, -, -, -, -, -, -, -, -, -, -, -, e0, e1, -⟩ := block_at t
  show V c main_v46 (((cfg1.win 11).blk t).view.emb (ix2 a b)) = V c main_v46 (ix2 a b)
  refine congrArg (V c main_v46) (funext fun i => Fin.ext ?_)
  match i with
  | ⟨0, _⟩ => show win1_11.index t (0 : Fin 2) * 1 + 1 * a.val = a.val; omega
  | ⟨1, _⟩ => show win1_11.index t (1 : Fin 2) * 128 + 1 * b.val = b.val; omega

/-- The second normalisation's shift block is the whole row. -/
theorem s2Blk_apply (c : Dev nD) (t : Fin cfg1.N) (a : Fin 1) (b : Fin 128) :
    s2Blk V c t (ix2 a b) = s2Arr V c (ix2 a b) := by
  obtain ⟨-, -, -, -, -, -, -, -, -, -, -, -, -, -, -, -, -, -, -, -, -, -, -, -, e0, e1, -⟩ := block_at t
  show V c main_v47 (((cfg1.win 12).blk t).view.emb (ix2 a b)) = V c main_v47 (ix2 a b)
  refine congrArg (V c main_v47) (funext fun i => Fin.ext ?_)
  match i with
  | ⟨0, _⟩ => show win1_12.index t (0 : Fin 2) * 1 + 1 * a.val = a.val; omega
  | ⟨1, _⟩ => show win1_12.index t (1 : Fin 2) * 128 + 1 * b.val = b.val; omega

/-- Entry `(p, q)` of point `t`'s output block is entry `(1000 t + p, q)` of the result array. -/
theorem out_emb (t : Fin cfg1.N) (p : Fin 1000) (q : Fin 128) :
    ((cfg1.win 13).blk t).view.emb (ix2 p q) = (ix2 (row t p) q : S100000x128.Idx) := by
  obtain ⟨-, -, -, -, -, -, -, -, -, -, -, -, -, -, -, -, -, -, -, -, -, -, -, -, -, -, e0, e1⟩ := block_at t
  refine funext fun a => Fin.ext ?_
  match a with
  | ⟨0, _⟩ => show win1_13.index t (0 : Fin 2) * 1000 + 1 * p.val = t.val * 1000 + p.val; omega
  | ⟨1, _⟩ => show win1_13.index t (1 : Fin 2) * 128 + 1 * q.val = q.val; omega

/-- An index of the result is in point `t`'s block iff each coordinate is in the block's range on its axis. -/
theorem mem_out_blk (t : Fin cfg1.N) (i : S100000x128.Idx) :
    i ∈ ((cfg1.win 13).blk t).view.set ↔ ∀ a : Fin 2, win1_13.index t a * S1000x128.size a ≤ (i a).val ∧ (i a).val < win1_13.index t a * S1000x128.size a + S1000x128.size a := by
  show i ∈ ((View.whole main_v48).slice (win1_13.rect t)).set ↔ _
  rw [View.set_slice_whole, Rect.mem_set_unit]
  exact Iff.rfl

/-- Every block row of the result is some point's. -/
theorem point_onto : ∀ b : Fin 100, ∃ t : Fin cfg1.N, win1_13.index t = ![b.val, 0] :=
  (by decide +kernel : ∀ b : Fin 100, ∃ t : Fin grid1.N, win1_13.index t = ![b.val, 0])

/-- The hundred row blocks tile the result. -/
theorem out_cover (i : S100000x128.Idx) :
    ∃ t : Fin cfg1.N, (cfg1.win 13).flush t = true ∧ i ∈ ((cfg1.win 13).blk t).view.set := by
  have hi0 : (i 0).val < 100000 := (i 0).isLt
  have hi1 : (i 1).val < 128 := (i 1).isLt
  obtain ⟨t, ht⟩ := point_onto ⟨(i 0).val / 1000, by omega⟩
  have q0 : win1_13.index t (0 : Fin 2) = (i 0).val / 1000 := congrFun ht 0
  have q1 : win1_13.index t (1 : Fin 2) = 0 := congrFun ht 1
  refine ⟨t, flush1_13 t, ?_⟩
  rw [mem_out_blk]
  intro a
  match a with
  | ⟨0, _⟩ => show win1_13.index t (0 : Fin 2) * 1000 ≤ (i 0).val ∧ (i 0).val < win1_13.index t (0 : Fin 2) * 1000 + 1000; omega
  | ⟨1, _⟩ => show win1_13.index t (1 : Fin 2) * 128 ≤ (i 1).val ∧ (i 1).val < win1_13.index t (1 : Fin 2) * 128 + 128; omega

/-- If the value the body stores at block entry `(p, q)` of point `t` is `G (1000 t + p, q)`, the region leaves `G` in the
    result array. -/
theorem arrAt_of_rows (c : Dev nD) (G : S100000x128.Idx → EReal)
    (hG : ∀ (t : Fin cfg1.N) (p : Fin 1000) (q : Fin 128),
      k1_pay1 (F := Ideal) (k1_pay3 (k1_pay2 (aggBlk V c t) (degBlk V c t) (w2Blk V c t) (b2Blk V c t) (hBlk V c t) (g1Blk V c t)) (s1Blk V c t) (w3Blk V c t) (b3Blk V c t) (w4Blk V c t) (b4Blk V c t)) (k1_pay4 (g2Blk V c t)) (s2Blk V c t) (ix2 p q) = G (ix2 (row t p) q)) :
    (dat1 (F := Ideal) V c).arrAt 13 cfg1.N = G := by
  refine (dat1 (F := Ideal) V c).arrAt_eq_of_cover 13 G (fun t _ => ?_) out_cover
  show (cfg1.win 13).cut (grid1.coords t) ((dat1 (F := Ideal) V c).after 13 t) = _
  rw [after1_13]
  unfold out1_13
  rw [View.canon_unit_zero origin]
  simp only [View.ld_unit_zero (S := S1000x128) origin, View.ld_unit_zero (S := S1000x1) origin, View.ld_unit_zero (S := S128x128) origin, View.ld_unit_zero (S := S1x128) origin, View.ld_unit_zero (S := S128x512) origin, View.ld_unit_zero (S := S1x512) origin, View.ld_unit_zero (S := S512x128) origin]
  funext j
  obtain ⟨p, q, rfl⟩ : ∃ (p : Fin 1000) (q : Fin 128), j = ix2 p q := ⟨j 0, j 1, eq_ix2 j⟩
  show k1_pay1 (F := Ideal) (k1_pay3 (k1_pay2 (aggBlk V c t) (degBlk V c t) (w2Blk V c t) (b2Blk V c t) (hBlk V c t) (g1Blk V c t)) (s1Blk V c t) (w3Blk V c t) (b3Blk V c t) (w4Blk V c t) (b4Blk V c t)) (k1_pay4 (g2Blk V c t)) (s2Blk V c t) (ix2 p q)
    = G (((cfg1.win 13).blk t).view.emb (ix2 p q))
  rw [out_emb]
  exact hG t p q

end Cert.KernelIdeal.NodeValue

end
-- ==== Proof.RowSpec.lean ====
/-
  What both programs compute, one output row at a time, on the extended reals.

  A row of the hyperedge stage is `(raw · s) W + b`: the aggregated row scaled by its degree factor, projected and biased.
  A row of the node stage is two layer normalisations around a projection and a two-layer feed-forward block:
  `h₁ = LN(h + (raw · s) W₂ + b₂; γ₁, β₁)`, `out = LN(h₁ + max(h₁ W₃ + b₃, 0) W₄ + b₄; γ₂, β₂)`, where
  `LN(x; γ, β) q = (x q − μ) · rsqrt(σ² + ε) · γ q + β q`, `μ` the row's mean and `σ²` the mean of the squared deviations.
  Every sum is a plain finite sum over the contracted coordinate; the divisor 128 and the offset ε stay the float words
  the two programs share, so neither is ever evaluated.
-/
import Idealize.ShloMosaic.PureOps.Ideal
import Idealize.ShloMosaic.Lib.ValueIdx

noncomputable section

namespace Cert.RowSpec

open Idealize.ShloMosaic Idealize.ShloMosaic.ValueIdx

/-- The row width 128 as the float word both programs divide by. -/
def width : EReal := Ideal.ofBits .f32 0x43000000#32

/-- The variance offset ε as the float word both programs add. -/
def offset : EReal := Ideal.ofBits .f32 0x3727C5AC#32

/-- One row of `x W + b`: entry `q` is `∑ k, x k · W k q + b q`. -/
def affine {K N : ℕ} (x : Fin K → EReal) (W : Fin K → Fin N → EReal) (b : Fin N → EReal) (q : Fin N) : EReal :=
  (∑ k : Fin K, x k * W k q) + b q

/-- The mean of a row of 128 entries. -/
def mean (x : Fin 128 → EReal) : EReal := Ideal.div (∑ k : Fin 128, x k) width

/-- Layer normalisation of one row with scale `g` and shift `b`. -/
def layerNorm (x g b : Fin 128 → EReal) (q : Fin 128) : EReal :=
  (x q - mean x) * Ideal.rsqrt (mean (fun k => (x k - mean x) * (x k - mean x)) + offset) * g q + b q

/-- A hyperedge's row: the aggregated row `raw` scaled by `s`, projected by `W`, shifted by `b`. -/
def hyperRow (raw : Fin 128 → EReal) (s : EReal) (W : Fin 128 → Fin 128 → EReal) (b : Fin 128 → EReal) : Fin 128 → EReal :=
  affine (fun k => raw k * s) W b

/-- The node stage's first half: the residual `h + (raw · s) W₂ + b₂`, normalised. -/
def firstNorm (h raw : Fin 128 → EReal) (s : EReal) (W₂ : Fin 128 → Fin 128 → EReal) (b₂ g₁ β₁ : Fin 128 → EReal) :
    Fin 128 → EReal :=
  layerNorm (fun q => h q + affine (fun k => raw k * s) W₂ b₂ q) g₁ β₁

/-- The feed-forward block's hidden row: `max(h₁ W₃ + b₃, 0)`. -/
def hidden (h₁ : Fin 128 → EReal) (W₃ : Fin 128 → Fin 512 → EReal) (b₃ : Fin 512 → EReal) (j : Fin 512) : EReal :=
  max (affine h₁ W₃ b₃ j) 0

/-- The node stage's second half on a normalised row `h₁`: `LN(h₁ + hidden(h₁) W₄ + b₄)`. -/
def secondNorm (h₁ : Fin 128 → EReal) (W₃ : Fin 128 → Fin 512 → EReal) (b₃ : Fin 512 → EReal)
    (W₄ : Fin 512 → Fin 128 → EReal) (b₄ g₂ β₂ : Fin 128 → EReal) : Fin 128 → EReal :=
  layerNorm (fun q => h₁ q + affine (hidden h₁ W₃ b₃) W₄ b₄ q) g₂ β₂

/-- A node's output row. -/
def nodeRow (h raw : Fin 128 → EReal) (s : EReal) (W₂ : Fin 128 → Fin 128 → EReal) (b₂ : Fin 128 → EReal)
    (W₃ : Fin 128 → Fin 512 → EReal) (b₃ : Fin 512 → EReal) (W₄ : Fin 512 → Fin 128 → EReal)
    (b₄ g₁ β₁ g₂ β₂ : Fin 128 → EReal) : Fin 128 → EReal :=
  secondNorm (firstNorm h raw s W₂ b₂ g₁ β₁) W₃ b₃ W₄ b₄ g₂ β₂

/-- The hyperedge stage over all 20000 rows: row `r` from row `r` of the aggregated array and the `r`-th degree factor. -/
def hyperArr (raw : (⟨2, ![20000, 128]⟩ : Shape).Idx → EReal) (ch : (⟨2, ![20000, 1]⟩ : Shape).Idx → EReal)
    (W : (⟨2, ![128, 128]⟩ : Shape).Idx → EReal) (b : (⟨1, ![128]⟩ : Shape).Idx → EReal) :
    (⟨2, ![20000, 128]⟩ : Shape).Idx → EReal :=
  fun i => hyperRow (fun k => raw (ix2 (i 0) k)) (ch (ix2 (i 0) (0 : Fin 1))) (fun k q => W (ix2 k q)) (fun q => b (ix1 q)) (i 1)

/-- The node stage over all 100000 rows. -/
def nodeArr (h raw : (⟨2, ![100000, 128]⟩ : Shape).Idx → EReal) (cn : (⟨2, ![100000, 1]⟩ : Shape).Idx → EReal)
    (W₂ : (⟨2, ![128, 128]⟩ : Shape).Idx → EReal) (b₂ : (⟨1, ![128]⟩ : Shape).Idx → EReal)
    (W₃ : (⟨2, ![128, 512]⟩ : Shape).Idx → EReal) (b₃ : (⟨1, ![512]⟩ : Shape).Idx → EReal)
    (W₄ : (⟨2, ![512, 128]⟩ : Shape).Idx → EReal) (b₄ g₁ β₁ g₂ β₂ : (⟨1, ![128]⟩ : Shape).Idx → EReal) :
    (⟨2, ![100000, 128]⟩ : Shape).Idx → EReal :=
  fun i => nodeRow (fun k => h (ix2 (i 0) k)) (fun k => raw (ix2 (i 0) k)) (cn (ix2 (i 0) (0 : Fin 1)))
    (fun k q => W₂ (ix2 k q)) (fun q => b₂ (ix1 q)) (fun k j => W₃ (ix2 k j)) (fun j => b₃ (ix1 j))
    (fun j q => W₄ (ix2 j q)) (fun q => b₄ (ix1 q)) (fun q => g₁ (ix1 q)) (fun q => β₁ (ix1 q))
    (fun q => g₂ (ix1 q)) (fun q => β₂ (ix1 q)) (i 1)

end Cert.RowSpec

end
-- ==== Proof.PayNode.lean ====
/-
  The node kernel's stored value read at one index.

  The node kernel adds the projected, scaled aggregate to the node's row, normalises the row, runs
  the two-layer feed-forward block on it, adds that to the normalised row and normalises again.
  At the extended reals the narrowing of every matmul operand is the identity and the accumulators
  and the rectifier's comparand are the real zero, so the value stored at (p, q) is entry q of the
  row specification's node row built from row p of each block and from the shared weights.
  The divisor 128 and the variance offset stay the float words both programs carry.
-/
import proofs.«170928_j38603166057018_1_alg».proof.Proof.Gen.KernelIdeal.Skeleton
import proofs.«170928_j38603166057018_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelPay

open Cert.KernelIdeal Cert.KernelIdeal.Gen Idealize.ShloMosaic Idealize.ShloMosaic.ValueIdx

/-! ## The three products' operand indices

Each product of the node kernel is a plain rows-by-columns contraction: the left operand is read at
(output row, contraction coordinate) and the right operand at (contraction coordinate, output column). -/

/-- Projection: the left operand's row is the output's row. -/
theorem lhs_proj_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl

/-- Projection: the left operand's column is the contraction coordinate. -/
theorem lhs_proj_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q

/-- Projection: the right operand's row is the contraction coordinate. -/
theorem rhs_proj_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q

/-- Projection: the right operand's column is the output's column. -/
theorem rhs_proj_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The [1000,128] x [128,128] projection into the zero accumulator, read at (p, q): the plain sum over the
    contracted coordinate of left (p, k) times right (k, q). -/
theorem matmul_proj_apply {φ₁ φ₂ : FTy} (a : FVec Ideal S1000x128 φ₁) (w : FVec Ideal S128x128 φ₂) (p : Fin 1000) (q : Fin 128) :
    matmul dot_S1000x128_S128x128_S1000x128_1_0_0_1_n_n none a w (constant S1000x128 .f32 0x00000000#32) (ix2 p q)
      = ∑ k : Fin 128, a (ix2 p k) * w (ix2 k q) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun c => Fin.ext (by
    match c with
    | ⟨0, _⟩ => exact lhs_proj_0 _ _
    | ⟨1, _⟩ => exact (lhs_proj_1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun c => Fin.ext (by
    match c with
    | ⟨0, _⟩ => exact (rhs_proj_0 _ _).trans hk
    | ⟨1, _⟩ => exact rhs_proj_1 _ _)
  rw [el, er]

/-- Widening product: the left operand's row is the output's row. -/
theorem lhs_up_0 (i : S1000x512.Idx) (q : dot_S1000x128_S128x512_S1000x512_1_0_0_1_n_n.contr.Idx) :
    (dot_S1000x128_S128x512_S1000x512_1_0_0_1_n_n.lhsIdx i q 0).val = (i 0).val := by
  unfold DotDims.lhsIdx
  rw [dif_neg (show ¬(0 : Fin S1000x128.rank) ∈ dot_S1000x128_S128x512_S1000x512_1_0_0_1_n_n.lhsBatch by decide), dif_pos (show (0 : Fin S1000x128.rank) ∈ dot_S1000x128_S128x512_S1000x512_1_0_0_1_n_n.lhsNonContracting by decide)]
  rfl

/-- Widening product: the left operand's column is the contraction coordinate. -/
theorem lhs_up_1 (i : S1000x512.Idx) (q : dot_S1000x128_S128x512_S1000x512_1_0_0_1_n_n.contr.Idx) :
    (dot_S1000x128_S128x512_S1000x512_1_0_0_1_n_n.lhsIdx i q 1).val = (q ⟨0, by decide⟩).val :=
  dot_S1000x128_S128x512_S1000x512_1_0_0_1_n_n.lhsIdx_val_of_single rfl i q

/-- Widening product: the right operand's row is the contraction coordinate. -/
theorem rhs_up_0 (i : S1000x512.Idx) (q : dot_S1000x128_S128x512_S1000x512_1_0_0_1_n_n.contr.Idx) :
    (dot_S1000x128_S128x512_S1000x512_1_0_0_1_n_n.rhsIdx i q 0).val = (q ⟨0, by decide⟩).val :=
  dot_S1000x128_S128x512_S1000x512_1_0_0_1_n_n.rhsIdx_val_of_single rfl i q

/-- Widening product: the right operand's column is the output's column. -/
theorem rhs_up_1 (i : S1000x512.Idx) (q : dot_S1000x128_S128x512_S1000x512_1_0_0_1_n_n.contr.Idx) :
    (dot_S1000x128_S128x512_S1000x512_1_0_0_1_n_n.rhsIdx i q 1).val = (i 1).val := by
  unfold DotDims.rhsIdx
  rw [dif_neg (show ¬(1 : Fin S128x512.rank) ∈ dot_S1000x128_S128x512_S1000x512_1_0_0_1_n_n.rhsBatch by decide), dif_pos (show (1 : Fin S128x512.rank) ∈ dot_S1000x128_S128x512_S1000x512_1_0_0_1_n_n.rhsNonContracting by decide)]
  rfl

/-- The [1000,128] x [128,512] widening product into the zero accumulator, read at (p, j): the plain sum
    over the contracted coordinate of left (p, k) times right (k, j). -/
theorem matmul_up_apply {φ₁ φ₂ : FTy} (a : FVec Ideal S1000x128 φ₁) (w : FVec Ideal S128x512 φ₂) (p : Fin 1000) (q : Fin 512) :
    matmul dot_S1000x128_S128x512_S1000x512_1_0_0_1_n_n none a w (constant S1000x512 .f32 0x00000000#32) (ix2 p q)
      = ∑ k : Fin 128, a (ix2 p k) * w (ix2 k q) := by
  simp only [matmul]
  rw [Ideal.matmul_constant_zero_apply, ← Equiv.sum_comp (contrEquiv1 dot_S1000x128_S128x512_S1000x512_1_0_0_1_n_n 128 rfl rfl).symm]
  refine Finset.sum_congr rfl fun k _ => ?_
  have hk := contrEquiv1_symm_val dot_S1000x128_S128x512_S1000x512_1_0_0_1_n_n 128 rfl rfl k
  have el : dot_S1000x128_S128x512_S1000x512_1_0_0_1_n_n.lhsIdx (ix2 p q) ((contrEquiv1 dot_S1000x128_S128x512_S1000x512_1_0_0_1_n_n 128 rfl rfl).symm k) = ix2 p k := funext fun c => Fin.ext (by
    match c with
    | ⟨0, _⟩ => exact lhs_up_0 _ _
    | ⟨1, _⟩ => exact (lhs_up_1 _ _).trans hk)
  have er : dot_S1000x128_S128x512_S1000x512_1_0_0_1_n_n.rhsIdx (ix2 p q) ((contrEquiv1 dot_S1000x128_S128x512_S1000x512_1_0_0_1_n_n 128 rfl rfl).symm k) = ix2 k q := funext fun c => Fin.ext (by
    match c with
    | ⟨0, _⟩ => exact (rhs_up_0 _ _).trans hk
    | ⟨1, _⟩ => exact rhs_up_1 _ _)
  rw [el, er]

/-- Narrowing product: the left operand's row is the output's row. -/
theorem lhs_down_0 (i : S1000x128.Idx) (q : dot_S1000x512_S512x128_S1000x128_1_0_0_1_n_n.contr.Idx) :
    (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl

/-- Narrowing product: the left operand's column is the contraction coordinate. -/
theorem lhs_down_1 (i : S1000x128.Idx) (q : dot_S1000x512_S512x128_S1000x128_1_0_0_1_n_n.contr.Idx) :
    (dot_S1000x512_S512x128_S1000x128_1_0_0_1_n_n.lhsIdx i q 1).val = (q ⟨0, by decide⟩).val :=
  dot_S1000x512_S512x128_S1000x128_1_0_0_1_n_n.lhsIdx_val_of_single rfl i q

/-- Narrowing product: the right operand's row is the contraction coordinate. -/
theorem rhs_down_0 (i : S1000x128.Idx) (q : dot_S1000x512_S512x128_S1000x128_1_0_0_1_n_n.contr.Idx) :
    (dot_S1000x512_S512x128_S1000x128_1_0_0_1_n_n.rhsIdx i q 0).val = (q ⟨0, by decide⟩).val :=
  dot_S1000x512_S512x128_S1000x128_1_0_0_1_n_n.rhsIdx_val_of_single rfl i q

/-- Narrowing product: the right operand's column is the output's column. -/
theorem rhs_down_1 (i : S1000x128.Idx) (q : dot_S1000x512_S512x128_S1000x128_1_0_0_1_n_n.contr.Idx) :
    (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl

/-- The [1000,512] x [512,128] narrowing product into the zero accumulator, read at (p, q): the plain sum
    over the contracted coordinate of left (p, j) times right (j, q). -/
theorem matmul_down_apply {φ₁ φ₂ : FTy} (a : FVec Ideal S1000x512 φ₁) (w : FVec Ideal S512x128 φ₂) (p : Fin 1000) (q : Fin 128) :
    matmul dot_S1000x512_S512x128_S1000x128_1_0_0_1_n_n none a w (constant S1000x128 .f32 0x00000000#32) (ix2 p q)
      = ∑ k : Fin 512, a (ix2 p k) * w (ix2 k q) := by
  simp only [matmul]
  rw [Ideal.matmul_constant_zero_apply, ← Equiv.sum_comp (contrEquiv1 dot_S1000x512_S512x128_S1000x128_1_0_0_1_n_n 512 rfl rfl).symm]
  refine Finset.sum_congr rfl fun k _ => ?_
  have hk := contrEquiv1_symm_val dot_S1000x512_S512x128_S1000x128_1_0_0_1_n_n 512 rfl rfl k
  have el : dot_S1000x512_S512x128_S1000x128_1_0_0_1_n_n.lhsIdx (ix2 p q) ((contrEquiv1 dot_S1000x512_S512x128_S1000x128_1_0_0_1_n_n 512 rfl rfl).symm k) = ix2 p k := funext fun c => Fin.ext (by
    match c with
    | ⟨0, _⟩ => exact lhs_down_0 _ _
    | ⟨1, _⟩ => exact (lhs_down_1 _ _).trans hk)
  have er : dot_S1000x512_S512x128_S1000x128_1_0_0_1_n_n.rhsIdx (ix2 p q) ((contrEquiv1 dot_S1000x512_S512x128_S1000x128_1_0_0_1_n_n 512 rfl rfl).symm k) = ix2 k q := funext fun c => Fin.ext (by
    match c with
    | ⟨0, _⟩ => exact (rhs_down_0 _ _).trans hk
    | ⟨1, _⟩ => exact rhs_down_1 _ _)
  rw [el, er]

/-! ## Layout operations of the node kernel read at an index -/

/-- The sum over the 128 lanes of a [1000,128] block, read at row r, is the finite sum of the row's entries. -/
theorem laneSum_node_apply (src : FVec Ideal S1000x128 .f32) (h : S1000x128.Reduces [1] S1000) (hφ : FKind.Formats .f32)
    (hacc : @Eq (BitVec (FTy.bits .f32)) 0x00000000#32 0x00000000#32) (r : Fin 1000) :
    multiReduction .add [1] S1000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src (funext fun c => Fin.ext ?_)
  match c with
  | ⟨0, _⟩ => rfl
  | ⟨1, _⟩ => rfl

/-- A [1000] vector cast to a [1000,1] column reads, at (r, u), the vector's entry r. -/
theorem keepdims_node_apply {α : Type} (v : S1000.Idx → α) (h : S1000.ShapeCasts S1000x1) (r : Fin 1000) (u : Fin 1) :
    shapeCast S1000x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A [1000,1] column broadcast to [1000,128] reads, at (p, q), the column's entry p. -/
theorem broadcastTo_node_col_apply {α : Type} (v : S1000x1.Idx → α) (h : S1000x1.Broadcasts S1000x128) (p : Fin 1000) (q : Fin 128) :
    broadcastTo S1000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The reciprocal square root of a block, read at an index, is the reciprocal square root of the entry. -/
theorem rsqrt_node_apply {s : Shape} {φ : FTy} (v : FVec Ideal s φ) (i : s.Idx) : rsqrt v i = Ideal.rsqrt (v i) := rfl

/-! ## The row's normalisation before scale and shift -/

/-- Entry q of a row centred at its mean and divided by the root of its variance plus the offset. -/
def unitRow (x : Fin 128 → EReal) (q : Fin 128) : EReal :=
  (x q - Cert.RowSpec.mean x)
    * Ideal.rsqrt (Cert.RowSpec.mean (fun k => (x k - Cert.RowSpec.mean x) * (x k - Cert.RowSpec.mean x)) + Cert.RowSpec.offset)

/-- Layer normalisation is the unit row, scaled and shifted. -/
theorem layerNorm_eq_unitRow (x g b : Fin 128 → EReal) (q : Fin 128) :
    Cert.RowSpec.layerNorm x g b q = unitRow x q * g q + b q := rfl

/-! ## The three payloads at an index -/

/-- The first payload at (p, q): the residual row h + (raw * s) W₂ + b₂, normalised and scaled by γ₁
    (the shift by β₁ is the next payload's first step). -/
theorem pay_node_first (x0 x1 : Vec Ideal S1000x128 .f32) (x2 : Vec Ideal S1000x1 .f32) (x3 : Vec Ideal S128x128 .f32)
    (x4 x9 : Vec Ideal S1x128 .f32) (p : Fin 1000) (q : Fin 128) :
    Cert.KernelIdeal.Gen.k1_pay2 (F := Ideal) x1 x2 x3 x4 x0 x9 (ix2 p q)
      = unitRow (fun q' => x0 (ix2 p q') + Cert.RowSpec.affine (fun k => x1 (ix2 p k) * x2 (ix2 p (0 : Fin 1)))
          (fun k q'' => x3 (ix2 k q'')) (fun q'' => x4 (ix2 (0 : Fin 1) q'')) q') q * x9 (ix2 (0 : Fin 1) q) := by
  unfold Cert.KernelIdeal.Gen.k1_pay2 unitRow Cert.RowSpec.mean Cert.RowSpec.affine Cert.RowSpec.width Cert.RowSpec.offset
  simp only [shapeCast_self, mulf_apply, addf_apply, subf_apply, divf_apply, truncf_apply, broadcast_apply, rsqrt_node_apply,
    matmul_proj_apply, broadcastTo_1b_ab_apply, broadcastTo_node_col_apply, keepdims_node_apply, Ideal.ofBits_def]
  rw [laneSum_node_apply, laneSum_node_apply]
  simp only [shapeCast_self, mulf_apply, addf_apply, subf_apply, divf_apply, truncf_apply, broadcast_apply, rsqrt_node_apply,
    matmul_proj_apply, broadcastTo_1b_ab_apply, broadcastTo_node_col_apply, keepdims_node_apply, Ideal.ofBits_def]
  rw [laneSum_node_apply]
  simp only [shapeCast_self, mulf_apply, addf_apply, subf_apply, divf_apply, truncf_apply, broadcast_apply, rsqrt_node_apply,
    matmul_proj_apply, broadcastTo_1b_ab_apply, broadcastTo_node_col_apply, keepdims_node_apply, Ideal.ofBits_def]

/-- The second payload at (p, q), for any first payload v: with h₁ the row v + β₁, the row
    h₁ + max(h₁ W₃ + b₃, 0) W₄ + b₄ centred and divided by the root of its variance plus the offset. -/
theorem pay_node_second (v : FVec Ideal S1000x128 .f32) (x10 : Vec Ideal S1x128 .f32) (x5 : Vec Ideal S128x512 .f32)
    (x6 : Vec Ideal S1x512 .f32) (x7 : Vec Ideal S512x128 .f32) (x8 : Vec Ideal S1x128 .f32) (p : Fin 1000) (q : Fin 128)
    (h₁ : Fin 128 → EReal) (hh : ∀ k, v (ix2 p k) + x10 (ix2 (0 : Fin 1) k) = h₁ k) :
    Cert.KernelIdeal.Gen.k1_pay3 (F := Ideal) v x10 x5 x6 x7 x8 (ix2 p q)
      = unitRow (fun q' => h₁ q'
          + Cert.RowSpec.affine (Cert.RowSpec.hidden h₁ (fun k j => x5 (ix2 k j)) (fun j => x6 (ix2 (0 : Fin 1) j)))
            (fun j q'' => x7 (ix2 j q'')) (fun q'' => x8 (ix2 (0 : Fin 1) q'')) q') q := by
  obtain rfl : (fun k => v (ix2 p k) + x10 (ix2 (0 : Fin 1) k)) = h₁ := funext hh
  unfold Cert.KernelIdeal.Gen.k1_pay3 unitRow Cert.RowSpec.mean Cert.RowSpec.hidden Cert.RowSpec.affine Cert.RowSpec.width Cert.RowSpec.offset
  simp only [shapeCast_self, mulf_apply, addf_apply, subf_apply, divf_apply, maximumf_apply, truncf_apply, broadcast_apply,
    rsqrt_node_apply, matmul_up_apply, matmul_down_apply, broadcastTo_1b_ab_apply, broadcastTo_node_col_apply,
    keepdims_node_apply, Ideal.ofBits_def, Ideal.ofBits_zero_f32]
  rw [laneSum_node_apply, laneSum_node_apply]
  simp only [shapeCast_self, mulf_apply, addf_apply, subf_apply, divf_apply, maximumf_apply, truncf_apply, broadcast_apply,
    rsqrt_node_apply, matmul_up_apply, matmul_down_apply, broadcastTo_1b_ab_apply, broadcastTo_node_col_apply,
    keepdims_node_apply, Ideal.ofBits_def, Ideal.ofBits_zero_f32]
  rw [laneSum_node_apply]
  simp only [shapeCast_self, mulf_apply, addf_apply, subf_apply, divf_apply, maximumf_apply, truncf_apply, broadcast_apply,
    rsqrt_node_apply, matmul_up_apply, matmul_down_apply, broadcastTo_1b_ab_apply, broadcastTo_node_col_apply,
    keepdims_node_apply, Ideal.ofBits_def, Ideal.ofBits_zero_f32]

/-- The stored payload at (p, q), for any normalised block v: v scaled by γ₂ and shifted by β₂. -/
theorem pay_node_last (v : FVec Ideal S1000x128 .f32) (x11 x12 : Vec Ideal S1x128 .f32) (p : Fin 1000) (q : Fin 128) :
    Cert.KernelIdeal.Gen.k1_pay1 (F := Ideal) v (Cert.KernelIdeal.Gen.k1_pay4 x11) x12 (ix2 p q)
      = v (ix2 p q) * x11 (ix2 (0 : Fin 1) q) + x12 (ix2 (0 : Fin 1) q) := by
  unfold Cert.KernelIdeal.Gen.k1_pay1 Cert.KernelIdeal.Gen.k1_pay4
  simp only [shapeCast_self, mulf_apply, addf_apply, broadcastTo_1b_ab_apply]

/-! ## The stored value -/

/-- The node kernel's stored value at (p, q) is entry q of the specification's node row built from
    row p of the node block and of the aggregated block, the p-th degree factor and the shared weights. -/
theorem pay_node (x0 x1 : Vec Ideal S1000x128 .f32) (x2 : Vec Ideal S1000x1 .f32) (x3 : Vec Ideal S128x128 .f32) (x4 : Vec Ideal S1x128 .f32) (x5 : Vec Ideal S128x512 .f32) (x6 : Vec Ideal S1x512 .f32) (x7 : Vec Ideal S512x128 .f32) (x8 x9 x10 x11 x12 : Vec Ideal S1x128 .f32) (p : Fin 1000) (q : Fin 128) :
    Cert.KernelIdeal.Gen.k1_pay1 (F := Ideal) (Cert.KernelIdeal.Gen.k1_pay3 (Cert.KernelIdeal.Gen.k1_pay2 x1 x2 x3 x4 x0 x9) x10 x5 x6 x7 x8) (Cert.KernelIdeal.Gen.k1_pay4 x11) x12 (ix2 p q)
      = Cert.RowSpec.nodeRow (fun k => x0 (ix2 p k)) (fun k => x1 (ix2 p k)) (x2 (ix2 p (0 : Fin 1))) (fun k q' => x3 (ix2 k q')) (fun q' => x4 (ix2 (0 : Fin 1) q')) (fun k j => x5 (ix2 k j)) (fun j => x6 (ix2 (0 : Fin 1) j)) (fun j q' => x7 (ix2 j q')) (fun q' => x8 (ix2 (0 : Fin 1) q')) (fun q' => x9 (ix2 (0 : Fin 1) q')) (fun q' => x10 (ix2 (0 : Fin 1) q')) (fun q' => x11 (ix2 (0 : Fin 1) q')) (fun q' => x12 (ix2 (0 : Fin 1) q')) q := by
  rw [pay_node_last, pay_node_second _ x10 x5 x6 x7 x8 p q
    (Cert.RowSpec.firstNorm (fun k => x0 (ix2 p k)) (fun k => x1 (ix2 p k)) (x2 (ix2 p (0 : Fin 1))) (fun k q' => x3 (ix2 k q'))
      (fun q' => x4 (ix2 (0 : Fin 1) q')) (fun q' => x9 (ix2 (0 : Fin 1) q')) (fun q' => x10 (ix2 (0 : Fin 1) q')))
    (fun k => by rw [pay_node_first]; rfl)]
  rfl

end Cert.KernelPay

end
-- ==== Proof.NodeArray.lean ====
/-
  The node region's output array as one function of the arrays it reads.

  Each stored row is the node row function of the staged rows (the composed payload read at an index); the staged blocks
  are rows of the input, aggregated and degree arrays and the whole of every matrix and row vector; so the region leaves
  the whole-array node function of those arrays.
-/
import proofs.«170928_j38603166057018_1_alg».proof.Proof.NodeBlocks
import proofs.«170928_j38603166057018_1_alg».proof.Proof.PayNode
import proofs.«170928_j38603166057018_1_alg».proof.Proof.RowSpec

set_option maxRecDepth 16384

noncomputable section

namespace Cert.KernelIdeal.NodeValue

open Cert.KernelIdeal Cert.KernelIdeal.Gen Cert.KernelIdeal.GenP
open Idealize.ShloMosaic Idealize.ShloMosaic.TcCoe Idealize.ShloMosaic.ValueIdx Idealize.SL.Sem

variable (V : (c : Dev nD) → (b : Ref sig .tc) → Buf (Elt Ideal) ((c : Thread nD τ).loc b))

/-- The region's result array is the node row function of the arrays it was entered with. -/
theorem node_array (c : Dev nD) :
    (dat1 (F := Ideal) V c).arrAt 13 cfg1.N
      = Cert.RowSpec.nodeArr (hArr V c) (aggArr V c) (degArr V c) (w2Arr V c) (fun j => b2Arr V c (ix2 (0 : Fin 1) (j 0))) (w3Arr V c) (fun j => b3Arr V c (ix2 (0 : Fin 1) (j 0))) (w4Arr V c) (fun j => b4Arr V c (ix2 (0 : Fin 1) (j 0))) (fun j => g1Arr V c (ix2 (0 : Fin 1) (j 0))) (fun j => s1Arr V c (ix2 (0 : Fin 1) (j 0))) (fun j => g2Arr V c (ix2 (0 : Fin 1) (j 0))) (fun j => s2Arr V c (ix2 (0 : Fin 1) (j 0))) := by
  refine arrAt_of_rows V c _ (fun t p q => ?_)
  refine (Cert.KernelPay.pay_node (hBlk V c t) (aggBlk V c t) (degBlk V c t) (w2Blk V c t) (b2Blk V c t) (w3Blk V c t) (b3Blk V c t) (w4Blk V c t) (b4Blk V c t) (g1Blk V c t) (s1Blk V c t) (g2Blk V c t) (s2Blk V c t) p q).trans ?_
  have e0 : (fun k => hBlk V c t (ix2 p k)) = fun k => hArr V c (ix2 (row t p) k) :=
    funext fun k => hBlk_apply V c t p k
  have e1 : (fun k => aggBlk V c t (ix2 p k)) = fun k => aggArr V c (ix2 (row t p) k) :=
    funext fun k => aggBlk_apply V c t p k
  have e2 := degBlk_apply V c t p (0 : Fin 1)
  have e3 : (fun a b => w2Blk V c t (ix2 a b)) = fun a b => w2Arr V c (ix2 a b) :=
    funext fun a => funext fun b => w2Blk_apply V c t a b
  have e4 : (fun b => b2Blk V c t (ix2 (0 : Fin 1) b)) = fun b => b2Arr V c (ix2 (0 : Fin 1) b) :=
    funext fun b => b2Blk_apply V c t (0 : Fin 1) b
  have e5 : (fun a b => w3Blk V c t (ix2 a b)) = fun a b => w3Arr V c (ix2 a b) :=
    funext fun a => funext fun b => w3Blk_apply V c t a b
  have e6 : (fun b => b3Blk V c t (ix2 (0 : Fin 1) b)) = fun b => b3Arr V c (ix2 (0 : Fin 1) b) :=
    funext fun b => b3Blk_apply V c t (0 : Fin 1) b
  have e7 : (fun a b => w4Blk V c t (ix2 a b)) = fun a b => w4Arr V c (ix2 a b) :=
    funext fun a => funext fun b => w4Blk_apply V c t a b
  have e8 : (fun b => b4Blk V c t (ix2 (0 : Fin 1) b)) = fun b => b4Arr V c (ix2 (0 : Fin 1) b) :=
    funext fun b => b4Blk_apply V c t (0 : Fin 1) b
  have e9 : (fun b => g1Blk V c t (ix2 (0 : Fin 1) b)) = fun b => g1Arr V c (ix2 (0 : Fin 1) b) :=
    funext fun b => g1Blk_apply V c t (0 : Fin 1) b
  have e10 : (fun b => s1Blk V c t (ix2 (0 : Fin 1) b)) = fun b => s1Arr V c (ix2 (0 : Fin 1) b) :=
    funext fun b => s1Blk_apply V c t (0 : Fin 1) b
  have e11 : (fun b => g2Blk V c t (ix2 (0 : Fin 1) b)) = fun b => g2Arr V c (ix2 (0 : Fin 1) b) :=
    funext fun b => g2Blk_apply V c t (0 : Fin 1) b
  have e12 : (fun b => s2Blk V c t (ix2 (0 : Fin 1) b)) = fun b => s2Arr V c (ix2 (0 : Fin 1) b) :=
    funext fun b => s2Blk_apply V c t (0 : Fin 1) b
  rw [e0, e1, e2, e3, e4, e5, e6, e7, e8, e9, e10, e11, e12]
  rfl

end Cert.KernelIdeal.NodeValue

end
-- ==== Proof.HostEntry0.lean ====
/-
  What the hyperedge region finds in the arrays it reads: the host operations before it, composed.

  The aggregated array is the scatter-add, by hyperedge, of the gathered rows of the degree-scaled input; the degree factor
  is the reciprocal square root of the hyperedge degrees clamped below by one, as a column; the weight matrix is the
  argument untouched; the bias row is the bias argument laid out as one row. The first two are the same compositions of
  host operations the reference applies to its own arguments, stage for stage, so they are stated as the reference's
  stages of this program's arguments and never opened.
-/
import proofs.«170928_j38603166057018_1_alg».proof.Proof.KernelIdealFrameP
import proofs.«170928_j38603166057018_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The hyperedge degree factors the region reads are the reference's stage of the destination indices. -/
theorem degree_entry (c : Dev nD) :
    (V1 m ρ c main_v14 : S20000x1.Idx → EReal) = Cert.ReferenceIdeal.Read.val_main_v14 (F := Ideal) (m ((c.tc : Thread nD τ).loc main_arg2)) := by
  show StableHlo.after hostOps0 (W0 m ρ c) (Proc.devRef .tc main_v14) = _
  after_results
  rfl

set_option maxHeartbeats 2000000 in
/-- The aggregated rows the region reads are the reference's stage of the input and the two index arrays. -/
theorem aggregate_entry (c : Dev nD) :
    (V1 m ρ c main_v26 : S20000x128.Idx → EReal)
      = Cert.ReferenceIdeal.Read.val_main_v26 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v26) = _
  after_results_simp
  rfl

/-- The weight matrix the region reads is the argument. -/
theorem weight_entry (c : Dev nD) : (V1 m ρ c main_arg3 : S128x128.Idx → EReal) = (m ((c.tc : Thread nD τ).loc main_arg3)) := by
  show StableHlo.after hostOps0 (W0 m ρ c) (Proc.devRef .tc main_arg3) = _
  after_results

/-- The bias row the region reads holds the bias argument's entry `q` at `(0, q)`. -/
theorem bias_entry (c : Dev nD) (q : Fin 128) :
    (V1 m ρ c main_v27 : S1x128.Idx → EReal) (ix2 (0 : Fin 1) q) = ((m ((c.tc : Thread nD τ).loc main_arg4)) : S128.Idx → EReal) (ix1 q) := by
  show StableHlo.after hostOps0 (W0 m ρ c) (Proc.devRef .tc main_v27) (ix2 (0 : Fin 1) q) = _
  after_results
  show shapeCast S1x128 (W0 m ρ c (Proc.devRef .tc main_arg4)) shapeCasts_S128_S1x128 (ix2 (0 : Fin 1) q) = _
  refine (shapeCast_apply _ _ _ (ix1 q) ?_).trans rfl
  rw [Shape.rowMajor_val_one, Shape.rowMajor_val_two]
  show q.val = 0 * 128 + q.val
  omega

end Cert.KernelIdeal.HostValue

end
-- ==== Proof.HostEntry1.lean ====
/-
  What the node region finds in the arrays it reads: the host operations between the two regions, composed over what the
  hyperedge region left.

  The input array and the three weight matrices are the arguments untouched; the seven bias, scale and shift rows are
  their arguments laid out as one row each; the node degree factor is the reciprocal square root of the node degrees
  clamped below by one, as a column; and the aggregated array is the scatter-add, by node, of the gathered rows of the
  degree-scaled hyperedge array. The last two are the compositions of host operations the reference applies, stage for
  stage, so they are stated as the reference's stages and never opened: the aggregated array given only that the
  hyperedge array the first region left is the reference's.
-/
import proofs.«170928_j38603166057018_1_alg».proof.Proof.HostEntry0

set_option maxRecDepth 16384

noncomputable section

namespace Cert.KernelIdeal.HostValue

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Argument 0 is untouched up to the hyperedge region's exit. -/
theorem arg0_exit (c : Dev nD) : W2 m ρ c (Proc.devRef .tc main_arg0) = (m ((c.tc : Thread nD τ).loc main_arg0)) := by
  refine (W2_of_ne m ρ c main_arg0 (by decide)).trans ?_
  show StableHlo.after hostOps0 (W0 m ρ c) (Proc.devRef .tc main_arg0) = _
  after_results

/-- Argument 1 is untouched up to the hyperedge region's exit. -/
theorem arg1_exit (c : Dev nD) : W2 m ρ c (Proc.devRef .tc main_arg1) = (m ((c.tc : Thread nD τ).loc main_arg1)) := by
  refine (W2_of_ne m ρ c main_arg1 (by decide)).trans ?_
  show StableHlo.after hostOps0 (W0 m ρ c) (Proc.devRef .tc main_arg1) = _
  after_results

/-- Argument 2 is untouched up to the hyperedge region's exit. -/
theorem arg2_exit (c : Dev nD) : W2 m ρ c (Proc.devRef .tc main_arg2) = (m ((c.tc : Thread nD τ).loc main_arg2)) := by
  refine (W2_of_ne m ρ c main_arg2 (by decide)).trans ?_
  show StableHlo.after hostOps0 (W0 m ρ c) (Proc.devRef .tc main_arg2) = _
  after_results

/-- Argument 5 is untouched up to the hyperedge region's exit. -/
theorem arg5_exit (c : Dev nD) : W2 m ρ c (Proc.devRef .tc main_arg5) = (m ((c.tc : Thread nD τ).loc main_arg5)) := by
  refine (W2_of_ne m ρ c main_arg5 (by decide)).trans ?_
  show StableHlo.after hostOps0 (W0 m ρ c) (Proc.devRef .tc main_arg5) = _
  after_results

/-- Argument 6 is untouched up to the hyperedge region's exit. -/
theorem arg6_exit (c : Dev nD) : W2 m ρ c (Proc.devRef .tc main_arg6) = (m ((c.tc : Thread nD τ).loc main_arg6)) := by
  refine (W2_of_ne m ρ c main_arg6 (by decide)).trans ?_
  show StableHlo.after hostOps0 (W0 m ρ c) (Proc.devRef .tc main_arg6) = _
  after_results

/-- Argument 7 is untouched up to the hyperedge region's exit. -/
theorem arg7_exit (c : Dev nD) : W2 m ρ c (Proc.devRef .tc main_arg7) = (m ((c.tc : Thread nD τ).loc main_arg7)) := by
  refine (W2_of_ne m ρ c main_arg7 (by decide)).trans ?_
  show StableHlo.after hostOps0 (W0 m ρ c) (Proc.devRef .tc main_arg7) = _
  after_results

/-- Argument 8 is untouched up to the hyperedge region's exit. -/
theorem arg8_exit (c : Dev nD) : W2 m ρ c (Proc.devRef .tc main_arg8) = (m ((c.tc : Thread nD τ).loc main_arg8)) := by
  refine (W2_of_ne m ρ c main_arg8 (by decide)).trans ?_
  show StableHlo.after hostOps0 (W0 m ρ c) (Proc.devRef .tc main_arg8) = _
  after_results

/-- Argument 9 is untouched up to the hyperedge region's exit. -/
theorem arg9_exit (c : Dev nD) : W2 m ρ c (Proc.devRef .tc main_arg9) = (m ((c.tc : Thread nD τ).loc main_arg9)) := by
  refine (W2_of_ne m ρ c main_arg9 (by decide)).trans ?_
  show StableHlo.after hostOps0 (W0 m ρ c) (Proc.devRef .tc main_arg9) = _
  after_results

/-- Argument 10 is untouched up to the hyperedge region's exit. -/
theorem arg10_exit (c : Dev nD) : W2 m ρ c (Proc.devRef .tc main_arg10) = (m ((c.tc : Thread nD τ).loc main_arg10)) := by
  refine (W2_of_ne m ρ c main_arg10 (by decide)).trans ?_
  show StableHlo.after hostOps0 (W0 m ρ c) (Proc.devRef .tc main_arg10) = _
  after_results

/-- Argument 11 is untouched up to the hyperedge region's exit. -/
theorem arg11_exit (c : Dev nD) : W2 m ρ c (Proc.devRef .tc main_arg11) = (m ((c.tc : Thread nD τ).loc main_arg11)) := by
  refine (W2_of_ne m ρ c main_arg11 (by decide)).trans ?_
  show StableHlo.after hostOps0 (W0 m ρ c) (Proc.devRef .tc main_arg11) = _
  after_results

/-- Argument 12 is untouched up to the hyperedge region's exit. -/
theorem arg12_exit (c : Dev nD) : W2 m ρ c (Proc.devRef .tc main_arg12) = (m ((c.tc : Thread nD τ).loc main_arg12)) := by
  refine (W2_of_ne m ρ c main_arg12 (by decide)).trans ?_
  show StableHlo.after hostOps0 (W0 m ρ c) (Proc.devRef .tc main_arg12) = _
  after_results

/-- Argument 13 is untouched up to the hyperedge region's exit. -/
theorem arg13_exit (c : Dev nD) : W2 m ρ c (Proc.devRef .tc main_arg13) = (m ((c.tc : Thread nD τ).loc main_arg13)) := by
  refine (W2_of_ne m ρ c main_arg13 (by decide)).trans ?_
  show StableHlo.after hostOps0 (W0 m ρ c) (Proc.devRef .tc main_arg13) = _
  after_results

/-- Argument 14 is untouched up to the hyperedge region's exit. -/
theorem arg14_exit (c : Dev nD) : W2 m ρ c (Proc.devRef .tc main_arg14) = (m ((c.tc : Thread nD τ).loc main_arg14)) := by
  refine (W2_of_ne m ρ c main_arg14 (by decide)).trans ?_
  show StableHlo.after hostOps0 (W0 m ρ c) (Proc.devRef .tc main_arg14) = _
  after_results

/-- The hyperedge degree factors are an input of the hyperedge region, which leaves its inputs as it found them. -/
theorem degree_exit (c : Dev nD) :
    W2 m ρ c (Proc.devRef .tc main_v14) = Cert.ReferenceIdeal.Read.val_main_v14 (F := Ideal) (m ((c.tc : Thread nD τ).loc main_arg2)) :=
  ((W2_arr m ρ c 1).trans (((dat0 (V1 m ρ) c).arrAt_in 1 rfl _).trans (A_eq0 (V1 m ρ) c 1))).trans (degree_entry m ρ c)

/-- The input array the node region reads is the argument. -/
theorem arg0_entry (c : Dev nD) : (V3 m ρ c main_arg0 : S100000x128.Idx → EReal) = (m ((c.tc : Thread nD τ).loc main_arg0)) := by
  show StableHlo.after hostOps1 (W2 m ρ c) (Proc.devRef .tc main_arg0) = _
  after_results
  exact arg0_exit m ρ c

/-- The first projection matrix the node region reads is the argument. -/
theorem arg5_entry (c : Dev nD) : (V3 m ρ c main_arg5 : S128x128.Idx → EReal) = (m ((c.tc : Thread nD τ).loc main_arg5)) := by
  show StableHlo.after hostOps1 (W2 m ρ c) (Proc.devRef .tc main_arg5) = _
  after_results
  exact arg5_exit m ρ c

/-- The feed-forward block's first matrix the node region reads is the argument. -/
theorem arg7_entry (c : Dev nD) : (V3 m ρ c main_arg7 : S128x512.Idx → EReal) = (m ((c.tc : Thread nD τ).loc main_arg7)) := by
  show StableHlo.after hostOps1 (W2 m ρ c) (Proc.devRef .tc main_arg7) = _
  after_results
  exact arg7_exit m ρ c

/-- The feed-forward block's second matrix the node region reads is the argument. -/
theorem arg9_entry (c : Dev nD) : (V3 m ρ c main_arg9 : S512x128.Idx → EReal) = (m ((c.tc : Thread nD τ).loc main_arg9)) := by
  show StableHlo.after hostOps1 (W2 m ρ c) (Proc.devRef .tc main_arg9) = _
  after_results
  exact arg9_exit m ρ c

/-- The node degree factors the node region reads are the reference's stage of the source indices. -/
theorem node_degree_entry (c : Dev nD) :
    (V3 m ρ c main_v12 : S100000x1.Idx → EReal) = Cert.ReferenceIdeal.Read.val_main_v12 (F := Ideal) (m ((c.tc : Thread nD τ).loc main_arg1)) := by
  show StableHlo.after hostOps1 (W2 m ρ c) (Proc.devRef .tc main_v12) = _
  after_results
  refine (W2_of_ne m ρ c main_v12 (by decide)).trans ?_
  show StableHlo.after hostOps0 (W0 m ρ c) (Proc.devRef .tc main_v12) = _
  after_results
  rfl

/-- The first bias row the node region reads holds the argument's entry `q` at `(0, q)`. -/
theorem row41_entry (c : Dev nD) (q : Fin 128) :
    (V3 m ρ c main_v41 : S1x128.Idx → EReal) (ix2 (0 : Fin 1) q) = ((m ((c.tc : Thread nD τ).loc main_arg6)) : S128.Idx → EReal) (ix1 q) := by
  show StableHlo.after hostOps1 (W2 m ρ c) (Proc.devRef .tc main_v41) (ix2 (0 : Fin 1) q) = _
  after_results
  show shapeCast S1x128 (W2 m ρ c (Proc.devRef .tc main_arg6)) shapeCasts_S128_S1x128 (ix2 (0 : Fin 1) q) = _
  refine (shapeCast_apply _ _ _ (ix1 q) ?_).trans (congrFun (arg6_exit m ρ c) (ix1 q))
  rw [Shape.rowMajor_val_one, Shape.rowMajor_val_two]
  show q.val = 0 * 128 + q.val
  omega

/-- The feed-forward block's first bias row the node region reads holds the argument's entry `q` at `(0, q)`. -/
theorem row42_entry (c : Dev nD) (q : Fin 512) :
    (V3 m ρ c main_v42 : S1x512.Idx → EReal) (ix2 (0 : Fin 1) q) = ((m ((c.tc : Thread nD τ).loc main_arg8)) : S512.Idx → EReal) (ix1 q) := by
  show StableHlo.after hostOps1 (W2 m ρ c) (Proc.devRef .tc main_v42) (ix2 (0 : Fin 1) q) = _
  after_results
  show shapeCast S1x512 (W2 m ρ c (Proc.devRef .tc main_arg8)) shapeCasts_S512_S1x512 (ix2 (0 : Fin 1) q) = _
  refine (shapeCast_apply _ _ _ (ix1 q) ?_).trans (congrFun (arg8_exit m ρ c) (ix1 q))
  rw [Shape.rowMajor_val_one, Shape.rowMajor_val_two]
  show q.val = 0 * 512 + q.val
  omega

/-- The feed-forward block's second bias row the node region reads holds the argument's entry `q` at `(0, q)`. -/
theorem row43_entry (c : Dev nD) (q : Fin 128) :
    (V3 m ρ c main_v43 : S1x128.Idx → EReal) (ix2 (0 : Fin 1) q) = ((m ((c.tc : Thread nD τ).loc main_arg10)) : S128.Idx → EReal) (ix1 q) := by
  show StableHlo.after hostOps1 (W2 m ρ c) (Proc.devRef .tc main_v43) (ix2 (0 : Fin 1) q) = _
  after_results
  show shapeCast S1x128 (W2 m ρ c (Proc.devRef .tc main_arg10)) shapeCasts_S128_S1x128 (ix2 (0 : Fin 1) q) = _
  refine (shapeCast_apply _ _ _ (ix1 q) ?_).trans (congrFun (arg10_exit m ρ c) (ix1 q))
  rw [Shape.rowMajor_val_one, Shape.rowMajor_val_two]
  show q.val = 0 * 128 + q.val
  omega

/-- The first normalisation's scale row the node region reads holds the argument's entry `q` at `(0, q)`. -/
theorem row44_entry (c : Dev nD) (q : Fin 128) :
    (V3 m ρ c main_v44 : S1x128.Idx → EReal) (ix2 (0 : Fin 1) q) = ((m ((c.tc : Thread nD τ).loc main_arg11)) : S128.Idx → EReal) (ix1 q) := by
  show StableHlo.after hostOps1 (W2 m ρ c) (Proc.devRef .tc main_v44) (ix2 (0 : Fin 1) q) = _
  after_results
  show shapeCast S1x128 (W2 m ρ c (Proc.devRef .tc main_arg11)) shapeCasts_S128_S1x128 (ix2 (0 : Fin 1) q) = _
  refine (shapeCast_apply _ _ _ (ix1 q) ?_).trans (congrFun (arg11_exit m ρ c) (ix1 q))
  rw [Shape.rowMajor_val_one, Shape.rowMajor_val_two]
  show q.val = 0 * 128 + q.val
  omega

/-- The first normalisation's shift row the node region reads holds the argument's entry `q` at `(0, q)`. -/
theorem row45_entry (c : Dev nD) (q : Fin 128) :
    (V3 m ρ c main_v45 : S1x128.Idx → EReal) (ix2 (0 : Fin 1) q) = ((m ((c.tc : Thread nD τ).loc main_arg12)) : S128.Idx → EReal) (ix1 q) := by
  show StableHlo.after hostOps1 (W2 m ρ c) (Proc.devRef .tc main_v45) (ix2 (0 : Fin 1) q) = _
  after_results
  show shapeCast S1x128 (W2 m ρ c (Proc.devRef .tc main_arg12)) shapeCasts_S128_S1x128 (ix2 (0 : Fin 1) q) = _
  refine (shapeCast_apply _ _ _ (ix1 q) ?_).trans (congrFun (arg12_exit m ρ c) (ix1 q))
  rw [Shape.rowMajor_val_one, Shape.rowMajor_val_two]
  show q.val = 0 * 128 + q.val
  omega

/-- The second normalisation's scale row the node region reads holds the argument's entry `q` at `(0, q)`. -/
theorem row46_entry (c : Dev nD) (q : Fin 128) :
    (V3 m ρ c main_v46 : S1x128.Idx → EReal) (ix2 (0 : Fin 1) q) = ((m ((c.tc : Thread nD τ).loc main_arg13)) : S128.Idx → EReal) (ix1 q) := by
  show StableHlo.after hostOps1 (W2 m ρ c) (Proc.devRef .tc main_v46) (ix2 (0 : Fin 1) q) = _
  after_results
  show shapeCast S1x128 (W2 m ρ c (Proc.devRef .tc main_arg13)) shapeCasts_S128_S1x128 (ix2 (0 : Fin 1) q) = _
  refine (shapeCast_apply _ _ _ (ix1 q) ?_).trans (congrFun (arg13_exit m ρ c) (ix1 q))
  rw [Shape.rowMajor_val_one, Shape.rowMajor_val_two]
  show q.val = 0 * 128 + q.val
  omega

/-- The second normalisation's shift row the node region reads holds the argument's entry `q` at `(0, q)`. -/
theorem row47_entry (c : Dev nD) (q : Fin 128) :
    (V3 m ρ c main_v47 : S1x128.Idx → EReal) (ix2 (0 : Fin 1) q) = ((m ((c.tc : Thread nD τ).loc main_arg14)) : S128.Idx → EReal) (ix1 q) := by
  show StableHlo.after hostOps1 (W2 m ρ c) (Proc.devRef .tc main_v47) (ix2 (0 : Fin 1) q) = _
  after_results
  show shapeCast S1x128 (W2 m ρ c (Proc.devRef .tc main_arg14)) shapeCasts_S128_S1x128 (ix2 (0 : Fin 1) q) = _
  refine (shapeCast_apply _ _ _ (ix1 q) ?_).trans (congrFun (arg14_exit m ρ c) (ix1 q))
  rw [Shape.rowMajor_val_one, Shape.rowMajor_val_two]
  show q.val = 0 * 128 + q.val
  omega

set_option maxHeartbeats 2000000 in
/-- The aggregated rows the node region reads are the reference's stage, once the hyperedge array the first region left
    is the reference's. -/
theorem node_aggregate_entry (c : Dev nD)
    (hH : (W2 m ρ c (Proc.devRef .tc main_v28) : S20000x128.Idx → EReal)
      = Cert.ReferenceIdeal.Read.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    (V3 m ρ c main_v40 : S100000x128.Idx → EReal)
      = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v40) = _
  after_results_simp
  rw [arg1_exit m ρ c, arg2_exit m ρ c, degree_exit m ρ c, hH]
  rfl

end Cert.KernelIdeal.HostValue

end
-- ==== Proof.HyperBlocks.lean ====
/-
  The hyperedge region's output array, read off its proof data.

  The grid has ten points; point `t` stages rows `2000 t … 2000 t + 1999` of the aggregated array and of the degree
  factors, the whole weight matrix and the whole bias row, and writes back rows `2000 t … 2000 t + 1999` of the result.
  So the ten write-backs tile the result, and if the stored value at block row `p`, column `q` of point `t` is
  `G (2000 t + p, q)` for one whole-array function `G`, the array ends holding `G`.
-/
import proofs.«170928_j38603166057018_1_alg».proof.Proof.KernelIdealFrameP
import Idealize.ShloMosaic.Lib.Pipeline.Value
import Idealize.ShloMosaic.Lib.ValueIdx

set_option maxRecDepth 16384

noncomputable section

namespace Cert.KernelIdeal.HyperValue

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The corner every staged block starts at. -/
theorem origin : (![0, 0] : Fin 2 → Nat) = fun _ => 0 := funext fun a => by fin_cases a <;> rfl

/-- Where each window's block sits at point `t`: the two row-blocked inputs and the output at block row `t`, the weight
    matrix and the bias row at their one block. -/
theorem block_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 10 := lt_of_lt_of_eq t.isLt N_0

/-- Row `p` of point `t`'s block is row `2000 t + p` of the array. -/
def row (t : Fin cfg0.N) (p : Fin 2000) : Fin 20000 :=
  ⟨t.val * 2000 + p.val, by have := point_lt t; have := p.isLt; omega⟩

/-- The staged blocks at a point and the arrays they are cut from, at their literal types. -/
abbrev rawBlk (c : Dev nD) (t : Fin cfg0.N) : Vec Ideal S2000x128 .f32 := iblk0 V c 0 t
abbrev degBlk (c : Dev nD) (t : Fin cfg0.N) : Vec Ideal S2000x1 .f32 := iblk0 V c 1 t
abbrev weightBlk (c : Dev nD) (t : Fin cfg0.N) : Vec Ideal S128x128 .f32 := iblk0 V c 2 t
abbrev biasBlk (c : Dev nD) (t : Fin cfg0.N) : Vec Ideal S1x128 .f32 := iblk0 V c 3 t
abbrev rawArr (c : Dev nD) : S20000x128.Idx → EReal := V c main_v26
abbrev degArr (c : Dev nD) : S20000x1.Idx → EReal := V c main_v14
abbrev weightArr (c : Dev nD) : S128x128.Idx → EReal := V c main_arg3
abbrev biasArr (c : Dev nD) : S1x128.Idx → EReal := V c main_v27

/-- The aggregated block's row `p` is the array's row `2000 t + p`. -/
theorem rawBlk_apply (c : Dev nD) (t : Fin cfg0.N) (p : Fin 2000) (k : Fin 128) :
    rawBlk V c t (ix2 p k) = rawArr V c (ix2 (row t p) k) := by
  obtain ⟨e0, e1, -⟩ := block_at t
  show V c main_v26 (((cfg0.win 0).blk t).view.emb (ix2 p k)) = V c main_v26 (ix2 (row t p) k)
  refine congrArg (V c main_v26) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The degree block's row `p` is the array's row `2000 t + p`. -/
theorem degBlk_apply (c : Dev nD) (t : Fin cfg0.N) (p : Fin 2000) (z : Fin 1) :
    degBlk V c t (ix2 p z) = degArr V c (ix2 (row t p) z) := by
  obtain ⟨-, -, e0, e1, -⟩ := block_at t
  show V c main_v14 (((cfg0.win 1).blk t).view.emb (ix2 p z)) = V c main_v14 (ix2 (row t p) z)
  refine congrArg (V c main_v14) (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * z.val = z.val; omega

/-- The weight block is the whole matrix. -/
theorem weightBlk_apply (c : Dev nD) (t : Fin cfg0.N) (k q : Fin 128) :
    weightBlk V c t (ix2 k q) = weightArr V c (ix2 k q) := by
  obtain ⟨-, -, -, -, e0, e1, -⟩ := block_at t
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias block is the whole row. -/
theorem biasBlk_apply (c : Dev nD) (t : Fin cfg0.N) (z : Fin 1) (q : Fin 128) :
    biasBlk V c t (ix2 z q) = biasArr V c (ix2 z q) := by
  obtain ⟨-, -, -, -, -, -, e0, e1, -⟩ := block_at t
  show V c main_v27 (((cfg0.win 3).blk t).view.emb (ix2 z q)) = V c main_v27 (ix2 z q)
  refine congrArg (V c main_v27) (funext fun a => Fin.ext ?_)
  match a with
  | ⟨0, _⟩ => show win0_3.index t (0 : Fin 2) * 1 + 1 * z.val = z.val; omega
  | ⟨1, _⟩ => show win0_3.index t (1 : Fin 2) * 128 + 1 * q.val = q.val; omega

/-- Entry `(p, q)` of point `t`'s output block is entry `(2000 t + p, q)` of the result array. -/
theorem out_emb (t : Fin cfg0.N) (p : Fin 2000) (q : Fin 128) :
    ((cfg0.win 4).blk t).view.emb (ix2 p q) = (ix2 (row t p) q : S20000x128.Idx) := by
  obtain ⟨-, -, -, -, -, -, -, -, e0, e1⟩ := block_at t
  refine funext fun a => Fin.ext ?_
  match a with
  | ⟨0, _⟩ => show win0_4.index t (0 : Fin 2) * 2000 + 1 * p.val = t.val * 2000 + p.val; omega
  | ⟨1, _⟩ => show win0_4.index t (1 : Fin 2) * 128 + 1 * q.val = q.val; omega

/-- An index of the result is in point `t`'s block iff each coordinate is in the block's range on its axis. -/
theorem mem_out_blk (t : Fin cfg0.N) (i : S20000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v28).slice (win0_4.rect t)).set ↔ _
  rw [View.set_slice_whole, Rect.mem_set_unit]
  exact Iff.rfl

/-- Every block row of the result is some point's. -/
theorem point_onto : ∀ b : Fin 10, ∃ t : Fin cfg0.N, win0_4.index t = ![b.val, 0] :=
  (by decide +kernel : ∀ b : Fin 10, ∃ t : Fin grid0.N, win0_4.index t = ![b.val, 0])

/-- The ten row blocks tile the result. -/
theorem out_cover (i : S20000x128.Idx) :
    ∃ t : Fin cfg0.N, (cfg0.win 4).flush t = true ∧ i ∈ ((cfg0.win 4).blk t).view.set := by
  have hi0 : (i 0).val < 20000 := (i 0).isLt
  have hi1 : (i 1).val < 128 := (i 1).isLt
  obtain ⟨t, ht⟩ := point_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_out_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- If the value the body stores at block entry `(p, q)` of point `t` is `G (2000 t + p, q)`, the region leaves `G` in the
    result array. -/
theorem arrAt_of_rows (c : Dev nD) (G : S20000x128.Idx → EReal)
    (hG : ∀ (t : Fin cfg0.N) (p : Fin 2000) (q : Fin 128),
      k0_pay1 (F := Ideal) (rawBlk V c t) (degBlk V c t) (weightBlk V c t) (biasBlk V c t) (ix2 p q) = G (ix2 (row t p) q)) :
    (dat0 (F := Ideal) V c).arrAt 4 cfg0.N = G := by
  refine (dat0 (F := Ideal) V c).arrAt_eq_of_cover 4 G (fun t _ => ?_) out_cover
  show (cfg0.win 4).cut (grid0.coords t) ((dat0 (F := Ideal) V c).after 4 t) = _
  rw [after0_4]
  unfold out0_4
  rw [View.canon_unit_zero origin]
  simp only [View.ld_unit_zero (S := S2000x128) origin, View.ld_unit_zero (S := S2000x1) origin,
    View.ld_unit_zero (S := S128x128) origin, View.ld_unit_zero (S := S1x128) origin]
  funext j
  obtain ⟨p, q, rfl⟩ : ∃ (p : Fin 2000) (q : Fin 128), j = ix2 p q := ⟨j 0, j 1, eq_ix2 j⟩
  show k0_pay1 (F := Ideal) (rawBlk V c t) (degBlk V c t) (weightBlk V c t) (biasBlk V c t) (ix2 p q)
    = G (((cfg0.win 4).blk t).view.emb (ix2 p q))
  rw [out_emb]
  exact hG t p q

end Cert.KernelIdeal.HyperValue

end
-- ==== Proof.PayHyper.lean ====
/-
  The hyperedge kernel's stored value read at one index.

  The kernel scales the aggregated block by the broadcast degree column, multiplies it into the
  projection matrix and adds the broadcast bias row.  At the extended reals the narrowing of the two
  matmul operands is the identity and the accumulator the product starts from is the real zero, so
  the value stored at (p, q) is the row specification's entry q of row p:
  the sum over k of (raw p k * s p) * W k q, plus b q.
-/
import proofs.«170928_j38603166057018_1_alg».proof.Proof.Gen.KernelIdeal.Skeleton
import proofs.«170928_j38603166057018_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelPay

open Cert.KernelIdeal Cert.KernelIdeal.Gen Idealize.ShloMosaic Idealize.ShloMosaic.ValueIdx

/-! ## The hyperedge product's operand indices

For the plain [2000,128] x [128,128] contraction, the left operand is read at (output row,
contraction coordinate) and the right operand at (contraction coordinate, output column). -/

/-- The left operand's row is the output's row. -/
theorem lhs_hyper_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The left operand's column is the contraction coordinate. -/
theorem lhs_hyper_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction coordinate. -/
theorem rhs_hyper_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_hyper_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The hyperedge product into the zero accumulator, read at (p, q): the plain sum over the
    contracted coordinate of left (p, k) times right (k, q). -/
theorem matmul_hyper_apply {φ₁ φ₂ : FTy} (a : FVec Ideal S2000x128 φ₁) (w : FVec Ideal S128x128 φ₂) (p : Fin 2000) (q : Fin 128) :
    matmul dot_S2000x128_S128x128_S2000x128_1_0_0_1_n_n none a w (constant S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun c => Fin.ext (by
    match c with
    | ⟨0, _⟩ => exact lhs_hyper_0 _ _
    | ⟨1, _⟩ => exact (lhs_hyper_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun c => Fin.ext (by
    match c with
    | ⟨0, _⟩ => exact (rhs_hyper_0 _ _).trans hk
    | ⟨1, _⟩ => exact rhs_hyper_1 _ _)
  rw [el, er]

/-! ## A column broadcast along the lanes -/

/-- A [2000,1] column broadcast to [2000,128] reads, at (p, q), the column's entry p. -/
theorem broadcastTo_hyper_col_apply {α : Type} (v : S2000x1.Idx → α) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The stored value -/

/-- The hyperedge kernel's stored value at (p, q) is entry q of the specification's row built from
    row p of the aggregated block, the p-th degree factor, the projection matrix and the bias row. -/
theorem pay_hyper (xb : Vec Ideal S2000x128 .f32) (sb : Vec Ideal S2000x1 .f32) (w : Vec Ideal S128x128 .f32) (b : Vec Ideal S1x128 .f32) (p : Fin 2000) (q : Fin 128) :
    Cert.KernelIdeal.Gen.k0_pay1 (F := Ideal) xb sb w b (ix2 p q)
      = Cert.RowSpec.hyperRow (fun k => xb (ix2 p k)) (sb (ix2 p (0 : Fin 1))) (fun k q' => w (ix2 k q')) (fun q' => b (ix2 (0 : Fin 1) q')) q := by
  unfold Cert.KernelIdeal.Gen.k0_pay1 Cert.RowSpec.hyperRow Cert.RowSpec.affine
  simp only [shapeCast_self]
  rw [addf_apply, matmul_hyper_apply, broadcastTo_1b_ab_apply]
  refine congrArg (· + b (ix2 (0 : Fin 1) q)) (Finset.sum_congr rfl fun k _ => ?_)
  rw [truncf_apply, truncf_apply, mulf_apply, broadcastTo_hyper_col_apply]

end Cert.KernelPay

end
-- ==== Proof.HyperArray.lean ====
/-
  The hyperedge region's output array as one function of the arrays it reads.

  Each stored row is the aggregated row scaled by its degree factor, projected and biased (the payload read at an index);
  the staged blocks are rows of the arrays; so the region leaves the whole-array row function of those arrays.
-/
import proofs.«170928_j38603166057018_1_alg».proof.Proof.HyperBlocks
import proofs.«170928_j38603166057018_1_alg».proof.Proof.PayHyper
import proofs.«170928_j38603166057018_1_alg».proof.Proof.RowSpec

set_option maxRecDepth 16384

noncomputable section

namespace Cert.KernelIdeal.HyperValue

open Cert.KernelIdeal Cert.KernelIdeal.Gen Cert.KernelIdeal.GenP
open Idealize.ShloMosaic Idealize.ShloMosaic.TcCoe Idealize.ShloMosaic.ValueIdx Idealize.SL.Sem

variable (V : (c : Dev nD) → (b : Ref sig .tc) → Buf (Elt Ideal) ((c : Thread nD τ).loc b))

/-- The region's result array is the hyperedge row function of the aggregated array, the degree factors, the weight
    matrix and the bias row it was entered with. -/
theorem hyper_array (c : Dev nD) :
    (dat0 (F := Ideal) V c).arrAt 4 cfg0.N
      = Cert.RowSpec.hyperArr (rawArr V c) (degArr V c) (weightArr V c) (fun j => biasArr V c (ix2 (0 : Fin 1) (j 0))) := by
  refine arrAt_of_rows V c _ (fun t p q => ?_)
  refine (Cert.KernelPay.pay_hyper (rawBlk V c t) (degBlk V c t) (weightBlk V c t) (biasBlk V c t) p q).trans ?_
  have h1 : (fun k => rawBlk V c t (ix2 p k)) = fun k => rawArr V c (ix2 (row t p) k) :=
    funext fun k => rawBlk_apply V c t p k
  have h2 := degBlk_apply V c t p (0 : Fin 1)
  have h3 : (fun k q' => weightBlk V c t (ix2 k q')) = fun k q' => weightArr V c (ix2 k q') :=
    funext fun k => funext fun q' => weightBlk_apply V c t k q'
  have h4 : (fun q' => biasBlk V c t (ix2 (0 : Fin 1) q')) = fun q' => biasArr V c (ix2 (0 : Fin 1) q') :=
    funext fun q' => biasBlk_apply V c t (0 : Fin 1) q'
  rw [h1, h2, h3, h4]
  rfl

end Cert.KernelIdeal.HyperValue

end
-- ==== Proof.RefHyper.lean ====
/-
  The reference's hyperedge stage, one row at a time.

  Row `r` of the reference's hyperedge array is the aggregated row scaled by the hyperedge's degree factor, projected by
  `W₁` and shifted by `b₁`: the host's matrix product read at an entry is the finite sum over the contracted
  coordinate, the scaling and the bias are broadcasts read at a coordinate.
-/
import proofs.«170928_j38603166057018_1_alg».proof.Proof.Gen.ReferenceIdeal.Read
import proofs.«170928_j38603166057018_1_alg».proof.Proof.RowSpec
import Idealize.ShloMosaic.Lib.ValueIdx
import Idealize.ShloMosaic.PureOps.Ideal.Laws

noncomputable section

namespace Cert.RefStages

open Cert.ReferenceIdeal Cert.ReferenceIdeal.Gen Cert.ReferenceIdeal.Read
open Idealize.ShloMosaic Idealize.ShloMosaic.TcCoe Idealize.ShloMosaic.ValueIdx

theorem hyper_factor_rows (r : Fin 20000) (k : Fin 128) : idx_main_v27 (ix2 r k) = ix2 r (0 : Fin 1) :=
  funext fun a => Fin.ext (by match a with | ⟨0, _⟩ => rfl | ⟨1, _⟩ => rfl)
theorem hyper_dot_left (r : Fin 20000) (q k : Fin 128) : lidx_main_v29 (ix2 r q) k = ix2 r k :=
  funext fun a => Fin.ext (by match a with | ⟨0, _⟩ => rfl | ⟨1, _⟩ => rfl)
theorem hyper_dot_right (r : Fin 20000) (q k : Fin 128) : ridx_main_v29 (ix2 r q) k = ix2 k q :=
  funext fun a => Fin.ext (by match a with | ⟨0, _⟩ => rfl | ⟨1, _⟩ => rfl)
theorem hyper_bias_rows (r : Fin 20000) (q : Fin 128) : idx_main_v31 (ix2 r q) = ix2 (0 : Fin 1) q :=
  funext fun a => Fin.ext (by match a with | ⟨0, _⟩ => rfl | ⟨1, _⟩ => rfl)
theorem hyper_bias (q : Fin 128) : idx_main_v30 (ix2 (0 : Fin 1) q) = ix1 q :=
  funext fun a => Fin.ext (by match a with | ⟨0, _⟩ => rfl)

/-- The reference's projected, biased hyperedge array is the hyperedge row function of its aggregated array, its degree
    factors, the weight matrix and the bias. -/
theorem ref_hyper (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v32 (F := Ideal) x0 x1 x2 x3 x4
      = Cert.RowSpec.hyperArr (val_main_v26 (F := Ideal) x0 x1 x2) (val_main_v14 (F := Ideal) x2) x3 x4 := by
  funext i
  obtain ⟨r, q, rfl⟩ : ∃ (r : Fin 20000) (q : Fin 128), i = ix2 r q := ⟨i 0, i 1, eq_ix2 i⟩
  rw [val_main_v32_apply, val_main_v29_apply, val_main_v31_apply, hyper_bias_rows, val_main_v30_apply, hyper_bias]
  simp only [Ideal.addf_def]
  show _ = (∑ k : Fin 128, (val_main_v26 (F := Ideal) x0 x1 x2 (ix2 r k) * val_main_v14 (F := Ideal) x2 (ix2 r (0 : Fin 1))) * x3 (ix2 k q)) + x4 (ix1 q)
  refine congrArg (fun s => s + x4 (ix1 q)) (Finset.sum_congr rfl fun k _ => ?_)
  rw [hyper_dot_left, hyper_dot_right, val_main_v28_apply, val_main_v27_apply, hyper_factor_rows]
  rfl

end Cert.RefStages

end
-- ==== Proof.HyperExit.lean ====
/-
  The hyperedge array the first region leaves is the reference's.

  The region leaves the hyperedge row function of the arrays it was entered with; those are the reference's own stages of
  the arguments (the aggregated array and the degree factors), the weight argument, and the bias argument as a row; and
  the reference's projected, biased hyperedge array is that same row function of them.
-/
import proofs.«170928_j38603166057018_1_alg».proof.Proof.HyperArray
import proofs.«170928_j38603166057018_1_alg».proof.Proof.HostEntry0
import proofs.«170928_j38603166057018_1_alg».proof.Proof.RefHyper

set_option maxRecDepth 16384

noncomputable section

namespace Cert.KernelIdeal.HostValue

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the first region's exit the hyperedge array holds the reference's projected, biased hyperedge array of this
    program's arguments. -/
theorem hyper_exit (c : Dev nD) :
    (W2 m ρ c (Proc.devRef .tc main_v28) : S20000x128.Idx → EReal)
      = Cert.ReferenceIdeal.Read.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 4).trans ?_
  refine (Cert.KernelIdeal.HyperValue.hyper_array (V1 m ρ) c).trans ?_
  have hb : (fun j : S128.Idx => Cert.KernelIdeal.HyperValue.biasArr (V1 m ρ) c (ix2 (0 : Fin 1) (j 0)))
      = ((m ((c.tc : Thread nD τ).loc main_arg4)) : S128.Idx → EReal) :=
    funext fun j => (bias_entry m ρ c (j 0)).trans (congrArg _ (eq_ix1 j).symm)
  show Cert.RowSpec.hyperArr (V1 m ρ c main_v26) (V1 m ρ c main_v14) (V1 m ρ c main_arg3) _ = _
  rw [hb, aggregate_entry m ρ c, degree_entry m ρ c, weight_entry m ρ c]
  exact (Cert.RefStages.ref_hyper _ _ _ _ _).symm

end Cert.KernelIdeal.HostValue

end
-- ==== Proof.RefNodeA.lean ====
/-
  The reference's first half, one row at a time: from the aggregated array to the first normalised array.

  Row `r` of the first residual is `h + (raw · cn) W₂ + b₂`: the aggregated row scaled by the node's degree factor,
  projected, biased and added to the input row; its mean and the mean of its squared deviations are the host's row sums
  divided by the width; and the normalised row is the deviation times the reciprocal root of the offset variance,
  scaled and shifted. Each stage is read at an index from the stage before.
-/
import proofs.«170928_j38603166057018_1_alg».proof.Proof.Gen.ReferenceIdeal.Read
import proofs.«170928_j38603166057018_1_alg».proof.Proof.RowSpec
import Idealize.ShloMosaic.Lib.ValueIdx
import Idealize.ShloMosaic.PureOps.Ideal.Laws

noncomputable section

namespace Cert.RefStages

open Cert.ReferenceIdeal Cert.ReferenceIdeal.Gen Cert.ReferenceIdeal.Read
open Idealize.ShloMosaic Idealize.ShloMosaic.TcCoe Idealize.ShloMosaic.ValueIdx

/-! ## Where each stage reads its operands -/

theorem factor_rows (r : Fin 100000) (k : Fin 128) : idx_main_v45 (ix2 r k) = ix2 r (0 : Fin 1) :=
  funext fun a => Fin.ext (by match a with | ⟨0, _⟩ => rfl | ⟨1, _⟩ => rfl)
theorem proj_dot_left (r : Fin 100000) (q k : Fin 128) : lidx_main_v47 (ix2 r q) k = ix2 r k :=
  funext fun a => Fin.ext (by match a with | ⟨0, _⟩ => rfl | ⟨1, _⟩ => rfl)
theorem proj_dot_right (r : Fin 100000) (q k : Fin 128) : ridx_main_v47 (ix2 r q) k = ix2 k q :=
  funext fun a => Fin.ext (by match a with | ⟨0, _⟩ => rfl | ⟨1, _⟩ => rfl)
theorem proj_bias_rows (r : Fin 100000) (q : Fin 128) : idx_main_v49 (ix2 r q) = ix2 (0 : Fin 1) q :=
  funext fun a => Fin.ext (by match a with | ⟨0, _⟩ => rfl | ⟨1, _⟩ => rfl)
theorem proj_bias (q : Fin 128) : idx_main_v48 (ix2 (0 : Fin 1) q) = ix1 q :=
  funext fun a => Fin.ext (by match a with | ⟨0, _⟩ => rfl)
theorem sum_row₁ (r : Fin 100000) (k : Fin 128) : idx_main_v52 (ix1 r) k = ix2 r k :=
  funext fun a => Fin.ext (by match a with | ⟨0, _⟩ => rfl | ⟨1, _⟩ => rfl)
theorem sum_col₁ (r : Fin 100000) (z : Fin 1) : idx_main_v53 (ix2 r z) = ix1 r :=
  funext fun a => Fin.ext (by match a with | ⟨0, _⟩ => rfl)
theorem mean_rows₁ (r : Fin 100000) (q : Fin 128) : idx_main_v56 (ix2 r q) = ix2 r (0 : Fin 1) :=
  funext fun a => Fin.ext (by match a with | ⟨0, _⟩ => rfl | ⟨1, _⟩ => rfl)
theorem sq_row₁ (r : Fin 100000) (k : Fin 128) : idx_main_v59 (ix1 r) k = ix2 r k :=
  funext fun a => Fin.ext (by match a with | ⟨0, _⟩ => rfl | ⟨1, _⟩ => rfl)
theorem sq_col₁ (r : Fin 100000) (z : Fin 1) : idx_main_v60 (ix2 r z) = ix1 r :=
  funext fun a => Fin.ext (by match a with | ⟨0, _⟩ => rfl)
theorem mean_rows₁' (r : Fin 100000) (q : Fin 128) : idx_main_v63 (ix2 r q) = ix2 r (0 : Fin 1) :=
  funext fun a => Fin.ext (by match a with | ⟨0, _⟩ => rfl | ⟨1, _⟩ => rfl)
theorem root_rows₁ (r : Fin 100000) (q : Fin 128) : idx_main_v68 (ix2 r q) = ix2 r (0 : Fin 1) :=
  funext fun a => Fin.ext (by match a with | ⟨0, _⟩ => rfl | ⟨1, _⟩ => rfl)
theorem scale_rows₁ (r : Fin 100000) (q : Fin 128) : idx_main_v71 (ix2 r q) = ix2 (0 : Fin 1) q :=
  funext fun a => Fin.ext (by match a with | ⟨0, _⟩ => rfl | ⟨1, _⟩ => rfl)
theorem scale_row₁ (q : Fin 128) : idx_main_v70 (ix2 (0 : Fin 1) q) = ix1 q :=
  funext fun a => Fin.ext (by match a with | ⟨0, _⟩ => rfl)
theorem shift_rows₁ (r : Fin 100000) (q : Fin 128) : idx_main_v74 (ix2 r q) = ix2 (0 : Fin 1) q :=
  funext fun a => Fin.ext (by match a with | ⟨0, _⟩ => rfl | ⟨1, _⟩ => rfl)
theorem shift_row₁ (q : Fin 128) : idx_main_v73 (ix2 (0 : Fin 1) q) = ix1 q :=
  funext fun a => Fin.ext (by match a with | ⟨0, _⟩ => rfl)

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x512, .f32⟩ : BufTy).Contents (Elt Ideal)) (x8 : (⟨S512, .f32⟩ : BufTy).Contents (Elt Ideal))
  (x9 : (⟨S512x128, .f32⟩ : BufTy).Contents (Elt Ideal)) (x10 x11 x12 x13 x14 : (⟨S128, .f32⟩ : BufTy).Contents (Elt Ideal))

/-! ## The projection and the residual -/

/-- Row `r` of the first residual is `h + (raw · cn) W₂ + b₂`. -/
theorem first_residual (r : Fin 100000) (q : Fin 128) :
    val_main_v51 (F := Ideal) x0 x1 x2 x3 x4 x5 x6 (ix2 r q)
      = x0 (ix2 r q) + Cert.RowSpec.affine (fun k => val_main_v44 (F := Ideal) x0 x1 x2 x3 x4 (ix2 r k) * (val_main_v12 (F := Ideal) x1 (ix2 r (0 : Fin 1)))) (fun k q' => x5 (ix2 k q')) (fun q' => x6 (ix1 q')) q := by
  rw [val_main_v51_apply, val_main_v50_apply, val_main_v47_apply, val_main_v49_apply, proj_bias_rows, val_main_v48_apply, proj_bias]
  simp only [Ideal.addf_def]
  unfold Cert.RowSpec.affine
  refine congrArg (fun s => x0 (ix2 r q) + (s + x6 (ix1 q))) (Finset.sum_congr rfl fun k _ => ?_)
  rw [proj_dot_left, proj_dot_right, val_main_v46_apply, val_main_v45_apply, factor_rows]
  rfl

/-! ## The first normalisation -/

/-- The row mean of the first residual. -/
theorem first_mean (r : Fin 100000) (z : Fin 1) :
    val_main_v55 (F := Ideal) x0 x1 x2 x3 x4 x5 x6 (ix2 r z) = Cert.RowSpec.mean (fun k => val_main_v51 (F := Ideal) x0 x1 x2 x3 x4 x5 x6 (ix2 r k)) := by
  rw [val_main_v55_apply, val_main_v53_apply, sum_col₁, val_main_v52_apply, val_main_cst_9_apply, val_main_v54_apply, val_main_cst_10_apply]
  simp only [Ideal.hostDivf_def, Ideal.ofBits_def, Ideal.ofBits_zero_f32, zero_add]
  refine (congrArg (fun s => Ideal.div s (Ideal.ofBits .f32 0x43000000#32)) (Finset.sum_congr rfl fun k _ => ?_)).trans rfl
  rw [sum_row₁]

/-- The deviation from the row mean, as the variance's summand reads it. -/
theorem first_dev (r : Fin 100000) (q : Fin 128) :
    val_main_v57 (F := Ideal) x0 x1 x2 x3 x4 x5 x6 (ix2 r q) = val_main_v51 (F := Ideal) x0 x1 x2 x3 x4 x5 x6 (ix2 r q) - Cert.RowSpec.mean (fun k => val_main_v51 (F := Ideal) x0 x1 x2 x3 x4 x5 x6 (ix2 r k)) := by
  rw [val_main_v57_apply, val_main_v56_apply, mean_rows₁, first_mean]
  rfl

/-- The deviation from the row mean, as the normalised row reads it. -/
theorem first_dev' (r : Fin 100000) (q : Fin 128) :
    val_main_v64 (F := Ideal) x0 x1 x2 x3 x4 x5 x6 (ix2 r q) = val_main_v51 (F := Ideal) x0 x1 x2 x3 x4 x5 x6 (ix2 r q) - Cert.RowSpec.mean (fun k => val_main_v51 (F := Ideal) x0 x1 x2 x3 x4 x5 x6 (ix2 r k)) := by
  rw [val_main_v64_apply, val_main_v63_apply, mean_rows₁', first_mean]
  rfl

/-- The row mean of the squared deviations. -/
theorem first_var (r : Fin 100000) (z : Fin 1) :
    val_main_v62 (F := Ideal) x0 x1 x2 x3 x4 x5 x6 (ix2 r z)
      = Cert.RowSpec.mean (fun k => (val_main_v51 (F := Ideal) x0 x1 x2 x3 x4 x5 x6 (ix2 r k) - Cert.RowSpec.mean (fun k => val_main_v51 (F := Ideal) x0 x1 x2 x3 x4 x5 x6 (ix2 r k))) * (val_main_v51 (F := Ideal) x0 x1 x2 x3 x4 x5 x6 (ix2 r k) - Cert.RowSpec.mean (fun k => val_main_v51 (F := Ideal) x0 x1 x2 x3 x4 x5 x6 (ix2 r k)))) := by
  rw [val_main_v62_apply, val_main_v60_apply, sq_col₁, val_main_v59_apply, val_main_cst_11_apply, val_main_v61_apply, val_main_cst_12_apply]
  simp only [Ideal.hostDivf_def, Ideal.ofBits_def, Ideal.ofBits_zero_f32, zero_add]
  refine (congrArg (fun s => Ideal.div s (Ideal.ofBits .f32 0x43000000#32)) (Finset.sum_congr rfl fun k _ => ?_)).trans rfl
  rw [sq_row₁, val_main_v58_apply, first_dev]
  rfl

/-- The reciprocal root of the offset variance. -/
theorem first_root (r : Fin 100000) (z : Fin 1) :
    val_main_v67 (F := Ideal) x0 x1 x2 x3 x4 x5 x6 (ix2 r z)
      = Ideal.rsqrt (Cert.RowSpec.mean (fun k => (val_main_v51 (F := Ideal) x0 x1 x2 x3 x4 x5 x6 (ix2 r k) - Cert.RowSpec.mean (fun k => val_main_v51 (F := Ideal) x0 x1 x2 x3 x4 x5 x6 (ix2 r k))) * (val_main_v51 (F := Ideal) x0 x1 x2 x3 x4 x5 x6 (ix2 r k) - Cert.RowSpec.mean (fun k => val_main_v51 (F := Ideal) x0 x1 x2 x3 x4 x5 x6 (ix2 r k)))) + Cert.RowSpec.offset) := by
  rw [val_main_v67_apply, val_main_v66_apply, first_var, val_main_v65_apply, val_main_cst_13_apply]
  rfl

/-- Row `r` of the first normalised array is the layer normalisation of row `r` of the first residual. -/
theorem first_norm (r : Fin 100000) (q : Fin 128) :
    val_main_v75 (F := Ideal) x0 x1 x2 x3 x4 x5 x6 x11 x12 (ix2 r q) = Cert.RowSpec.layerNorm (fun k => val_main_v51 (F := Ideal) x0 x1 x2 x3 x4 x5 x6 (ix2 r k)) (fun q' => x11 (ix1 q')) (fun q' => x12 (ix1 q')) q := by
  rw [val_main_v75_apply, val_main_v72_apply, val_main_v69_apply, first_dev', val_main_v68_apply, root_rows₁, first_root,
    val_main_v71_apply, scale_rows₁, val_main_v70_apply, scale_row₁, val_main_v74_apply, shift_rows₁, val_main_v73_apply, shift_row₁]
  rfl

/-- Row `r` of the first normalised array is the node stage's first half of row `r` of the input, the aggregated array
    and the degree factor. -/
theorem ref_first (r : Fin 100000) (q : Fin 128) :
    val_main_v75 (F := Ideal) x0 x1 x2 x3 x4 x5 x6 x11 x12 (ix2 r q)
      = Cert.RowSpec.firstNorm (fun k => x0 (ix2 r k)) (fun k => val_main_v44 (F := Ideal) x0 x1 x2 x3 x4 (ix2 r k)) (val_main_v12 (F := Ideal) x1 (ix2 r (0 : Fin 1))) (fun k q' => x5 (ix2 k q')) (fun q' => x6 (ix1 q')) (fun q' => x11 (ix1 q')) (fun q' => x12 (ix1 q')) q := by
  rw [first_norm]
  have e : (fun k => val_main_v51 (F := Ideal) x0 x1 x2 x3 x4 x5 x6 (ix2 r k)) = fun q' => x0 (ix2 r q') + Cert.RowSpec.affine (fun k => val_main_v44 (F := Ideal) x0 x1 x2 x3 x4 (ix2 r k) * (val_main_v12 (F := Ideal) x1 (ix2 r (0 : Fin 1)))) (fun k q' => x5 (ix2 k q')) (fun q' => x6 (ix1 q')) q' :=
    funext fun k => first_residual x0 x1 x2 x3 x4 x5 x6 r k
  rw [e]
  rfl

end Cert.RefStages

end
-- ==== Proof.RefNodeB.lean ====
/-
  The reference's second half, one row at a time: from the first normalised array to the result.

  Row `r` of the hidden array is `max(h₁ W₃ + b₃, 0)` of row `r` of the normalised array `h₁`; row `r` of the second
  residual is `h₁ + hidden · W₄ + b₄`; its mean and the mean of its squared deviations are the host's row sums divided
  by the width; and the result row is the deviation times the reciprocal root of the offset variance, scaled and shifted.
  Each stage is read at an index from the stage before; the matrix products and the row sums are finite sums over the
  contracted coordinate, re-indexed to row and column.
-/
import proofs.«170928_j38603166057018_1_alg».proof.Proof.Gen.ReferenceIdeal.Read
import proofs.«170928_j38603166057018_1_alg».proof.Proof.RowSpec
import Idealize.ShloMosaic.Lib.ValueIdx
import Idealize.ShloMosaic.PureOps.Ideal.Laws

noncomputable section

namespace Cert.RefStages

open Cert.ReferenceIdeal Cert.ReferenceIdeal.Gen Cert.ReferenceIdeal.Read
open Idealize.ShloMosaic Idealize.ShloMosaic.TcCoe Idealize.ShloMosaic.ValueIdx

/-! ## Where each stage reads its operands -/

theorem hidden_dot_left (r : Fin 100000) (j : Fin 512) (k : Fin 128) : lidx_main_v76 (ix2 r j) k = ix2 r k :=
  funext fun a => Fin.ext (by match a with | ⟨0, _⟩ => rfl | ⟨1, _⟩ => rfl)
theorem hidden_dot_right (r : Fin 100000) (j : Fin 512) (k : Fin 128) : ridx_main_v76 (ix2 r j) k = ix2 k j :=
  funext fun a => Fin.ext (by match a with | ⟨0, _⟩ => rfl | ⟨1, _⟩ => rfl)
theorem hidden_bias_rows (r : Fin 100000) (j : Fin 512) : idx_main_v78 (ix2 r j) = ix2 (0 : Fin 1) j :=
  funext fun a => Fin.ext (by match a with | ⟨0, _⟩ => rfl | ⟨1, _⟩ => rfl)
theorem hidden_bias (j : Fin 512) : idx_main_v77 (ix2 (0 : Fin 1) j) = ix1 j :=
  funext fun a => Fin.ext (by match a with | ⟨0, _⟩ => rfl)
theorem out_dot_left (r : Fin 100000) (q : Fin 128) (j : Fin 512) : lidx_main_v81 (ix2 r q) j = ix2 r j :=
  funext fun a => Fin.ext (by match a with | ⟨0, _⟩ => rfl | ⟨1, _⟩ => rfl)
theorem out_dot_right (r : Fin 100000) (q : Fin 128) (j : Fin 512) : ridx_main_v81 (ix2 r q) j = ix2 j q :=
  funext fun a => Fin.ext (by match a with | ⟨0, _⟩ => rfl | ⟨1, _⟩ => rfl)
theorem out_bias_rows (r : Fin 100000) (q : Fin 128) : idx_main_v83 (ix2 r q) = ix2 (0 : Fin 1) q :=
  funext fun a => Fin.ext (by match a with | ⟨0, _⟩ => rfl | ⟨1, _⟩ => rfl)
theorem out_bias (q : Fin 128) : idx_main_v82 (ix2 (0 : Fin 1) q) = ix1 q :=
  funext fun a => Fin.ext (by match a with | ⟨0, _⟩ => rfl)
theorem sum_row (r : Fin 100000) (k : Fin 128) : idx_main_v86 (ix1 r) k = ix2 r k :=
  funext fun a => Fin.ext (by match a with | ⟨0, _⟩ => rfl | ⟨1, _⟩ => rfl)
theorem sum_col (r : Fin 100000) (z : Fin 1) : idx_main_v87 (ix2 r z) = ix1 r :=
  funext fun a => Fin.ext (by match a with | ⟨0, _⟩ => rfl)
theorem mean_rows (r : Fin 100000) (q : Fin 128) : idx_main_v90 (ix2 r q) = ix2 r (0 : Fin 1) :=
  funext fun a => Fin.ext (by match a with | ⟨0, _⟩ => rfl | ⟨1, _⟩ => rfl)
theorem sq_row (r : Fin 100000) (k : Fin 128) : idx_main_v93 (ix1 r) k = ix2 r k :=
  funext fun a => Fin.ext (by match a with | ⟨0, _⟩ => rfl | ⟨1, _⟩ => rfl)
theorem sq_col (r : Fin 100000) (z : Fin 1) : idx_main_v94 (ix2 r z) = ix1 r :=
  funext fun a => Fin.ext (by match a with | ⟨0, _⟩ => rfl)
theorem mean_rows' (r : Fin 100000) (q : Fin 128) : idx_main_v97 (ix2 r q) = ix2 r (0 : Fin 1) :=
  funext fun a => Fin.ext (by match a with | ⟨0, _⟩ => rfl | ⟨1, _⟩ => rfl)
theorem root_rows (r : Fin 100000) (q : Fin 128) : idx_main_v102 (ix2 r q) = ix2 r (0 : Fin 1) :=
  funext fun a => Fin.ext (by match a with | ⟨0, _⟩ => rfl | ⟨1, _⟩ => rfl)
theorem scale_rows (r : Fin 100000) (q : Fin 128) : idx_main_v105 (ix2 r q) = ix2 (0 : Fin 1) q :=
  funext fun a => Fin.ext (by match a with | ⟨0, _⟩ => rfl | ⟨1, _⟩ => rfl)
theorem scale_row (q : Fin 128) : idx_main_v104 (ix2 (0 : Fin 1) q) = ix1 q :=
  funext fun a => Fin.ext (by match a with | ⟨0, _⟩ => rfl)
theorem shift_rows (r : Fin 100000) (q : Fin 128) : idx_main_v108 (ix2 r q) = ix2 (0 : Fin 1) q :=
  funext fun a => Fin.ext (by match a with | ⟨0, _⟩ => rfl | ⟨1, _⟩ => rfl)
theorem shift_row (q : Fin 128) : idx_main_v107 (ix2 (0 : Fin 1) q) = ix1 q :=
  funext fun a => Fin.ext (by match a with | ⟨0, _⟩ => rfl)

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x512, .f32⟩ : BufTy).Contents (Elt Ideal)) (x8 : (⟨S512, .f32⟩ : BufTy).Contents (Elt Ideal))
  (x9 : (⟨S512x128, .f32⟩ : BufTy).Contents (Elt Ideal)) (x10 x11 x12 x13 x14 : (⟨S128, .f32⟩ : BufTy).Contents (Elt Ideal))

/-! ## The feed-forward block -/

/-- Row `r` of the hidden array is `max(h₁ W₃ + b₃, 0)` of row `r` of the normalised array. -/
theorem hidden_row (r : Fin 100000) (j : Fin 512) :
    val_main_v80 (F := Ideal) x0 x1 x2 x3 x4 x5 x6 x7 x8 x11 x12 (ix2 r j) = Cert.RowSpec.hidden (fun k => val_main_v75 (F := Ideal) x0 x1 x2 x3 x4 x5 x6 x11 x12 (ix2 r k)) (fun k j => x7 (ix2 k j)) (fun j => x8 (ix1 j)) j := by
  rw [val_main_v80_apply, val_main_v79_apply, val_main_v76_apply, val_main_v78_apply, hidden_bias_rows, val_main_v77_apply, hidden_bias,
    val_main_call0_v0_apply, val_main_call0_cst_apply]
  simp only [Ideal.maximumf_def, Ideal.addf_def, Ideal.ofBits_def, Ideal.ofBits_zero_f32]
  unfold Cert.RowSpec.hidden Cert.RowSpec.affine
  refine congrArg (fun s => max (s + x8 (ix1 j)) 0) (Finset.sum_congr rfl fun k _ => ?_)
  rw [hidden_dot_left, hidden_dot_right]

/-- Row `r` of the second residual is `h₁ + hidden · W₄ + b₄`. -/
theorem second_residual (r : Fin 100000) (q : Fin 128) :
    val_main_v85 (F := Ideal) x0 x1 x2 x3 x4 x5 x6 x7 x8 x9 x10 x11 x12 (ix2 r q)
      = val_main_v75 (F := Ideal) x0 x1 x2 x3 x4 x5 x6 x11 x12 (ix2 r q) + Cert.RowSpec.affine (Cert.RowSpec.hidden (fun k => val_main_v75 (F := Ideal) x0 x1 x2 x3 x4 x5 x6 x11 x12 (ix2 r k)) (fun k j => x7 (ix2 k j)) (fun j => x8 (ix1 j))) (fun j q' => x9 (ix2 j q')) (fun q' => x10 (ix1 q')) q := by
  rw [val_main_v85_apply, val_main_v84_apply, val_main_v81_apply, val_main_v83_apply, out_bias_rows, val_main_v82_apply, out_bias]
  simp only [Ideal.addf_def]
  unfold Cert.RowSpec.affine
  refine congrArg (fun s => val_main_v75 (F := Ideal) x0 x1 x2 x3 x4 x5 x6 x11 x12 (ix2 r q) + (s + x10 (ix1 q))) (Finset.sum_congr rfl fun j _ => ?_)
  rw [out_dot_left, out_dot_right, hidden_row]

/-! ## The second normalisation -/

/-- The row mean of the second residual. -/
theorem second_mean (r : Fin 100000) (z : Fin 1) :
    val_main_v89 (F := Ideal) x0 x1 x2 x3 x4 x5 x6 x7 x8 x9 x10 x11 x12 (ix2 r z) = Cert.RowSpec.mean (fun k => val_main_v85 (F := Ideal) x0 x1 x2 x3 x4 x5 x6 x7 x8 x9 x10 x11 x12 (ix2 r k)) := by
  rw [val_main_v89_apply, val_main_v87_apply, sum_col, val_main_v86_apply, val_main_cst_14_apply, val_main_v88_apply, val_main_cst_15_apply]
  simp only [Ideal.hostDivf_def, Ideal.ofBits_def, Ideal.ofBits_zero_f32, zero_add]
  refine (congrArg (fun s => Ideal.div s (Ideal.ofBits .f32 0x43000000#32)) (Finset.sum_congr rfl fun k _ => ?_)).trans rfl
  rw [sum_row]

/-- The deviation from the row mean, as the variance's summand reads it. -/
theorem second_dev (r : Fin 100000) (q : Fin 128) :
    val_main_v91 (F := Ideal) x0 x1 x2 x3 x4 x5 x6 x7 x8 x9 x10 x11 x12 (ix2 r q) = val_main_v85 (F := Ideal) x0 x1 x2 x3 x4 x5 x6 x7 x8 x9 x10 x11 x12 (ix2 r q) - Cert.RowSpec.mean (fun k => val_main_v85 (F := Ideal) x0 x1 x2 x3 x4 x5 x6 x7 x8 x9 x10 x11 x12 (ix2 r k)) := by
  rw [val_main_v91_apply, val_main_v90_apply, mean_rows, second_mean]
  rfl

/-- The deviation from the row mean, as the output reads it. -/
theorem second_dev' (r : Fin 100000) (q : Fin 128) :
    val_main_v98 (F := Ideal) x0 x1 x2 x3 x4 x5 x6 x7 x8 x9 x10 x11 x12 (ix2 r q) = val_main_v85 (F := Ideal) x0 x1 x2 x3 x4 x5 x6 x7 x8 x9 x10 x11 x12 (ix2 r q) - Cert.RowSpec.mean (fun k => val_main_v85 (F := Ideal) x0 x1 x2 x3 x4 x5 x6 x7 x8 x9 x10 x11 x12 (ix2 r k)) := by
  rw [val_main_v98_apply, val_main_v97_apply, mean_rows', second_mean]
  rfl

/-- The row mean of the squared deviations. -/
theorem second_var (r : Fin 100000) (z : Fin 1) :
    val_main_v96 (F := Ideal) x0 x1 x2 x3 x4 x5 x6 x7 x8 x9 x10 x11 x12 (ix2 r z)
      = Cert.RowSpec.mean (fun k => (val_main_v85 (F := Ideal) x0 x1 x2 x3 x4 x5 x6 x7 x8 x9 x10 x11 x12 (ix2 r k) - Cert.RowSpec.mean (fun k => val_main_v85 (F := Ideal) x0 x1 x2 x3 x4 x5 x6 x7 x8 x9 x10 x11 x12 (ix2 r k))) * (val_main_v85 (F := Ideal) x0 x1 x2 x3 x4 x5 x6 x7 x8 x9 x10 x11 x12 (ix2 r k) - Cert.RowSpec.mean (fun k => val_main_v85 (F := Ideal) x0 x1 x2 x3 x4 x5 x6 x7 x8 x9 x10 x11 x12 (ix2 r k)))) := by
  rw [val_main_v96_apply, val_main_v94_apply, sq_col, val_main_v93_apply, val_main_cst_16_apply, val_main_v95_apply, val_main_cst_17_apply]
  simp only [Ideal.hostDivf_def, Ideal.ofBits_def, Ideal.ofBits_zero_f32, zero_add]
  refine (congrArg (fun s => Ideal.div s (Ideal.ofBits .f32 0x43000000#32)) (Finset.sum_congr rfl fun k _ => ?_)).trans rfl
  rw [sq_row, val_main_v92_apply, second_dev]
  rfl

/-- The reciprocal root of the offset variance. -/
theorem second_root (r : Fin 100000) (z : Fin 1) :
    val_main_v101 (F := Ideal) x0 x1 x2 x3 x4 x5 x6 x7 x8 x9 x10 x11 x12 (ix2 r z)
      = Ideal.rsqrt (Cert.RowSpec.mean (fun k => (val_main_v85 (F := Ideal) x0 x1 x2 x3 x4 x5 x6 x7 x8 x9 x10 x11 x12 (ix2 r k) - Cert.RowSpec.mean (fun k => val_main_v85 (F := Ideal) x0 x1 x2 x3 x4 x5 x6 x7 x8 x9 x10 x11 x12 (ix2 r k))) * (val_main_v85 (F := Ideal) x0 x1 x2 x3 x4 x5 x6 x7 x8 x9 x10 x11 x12 (ix2 r k) - Cert.RowSpec.mean (fun k => val_main_v85 (F := Ideal) x0 x1 x2 x3 x4 x5 x6 x7 x8 x9 x10 x11 x12 (ix2 r k)))) + Cert.RowSpec.offset) := by
  rw [val_main_v101_apply, val_main_v100_apply, second_var, val_main_v99_apply, val_main_cst_18_apply]
  rfl

/-- Row `r` of the result is the layer normalisation of row `r` of the second residual. -/
theorem second_norm (r : Fin 100000) (q : Fin 128) :
    val_main_v109 (F := Ideal) x0 x1 x2 x3 x4 x5 x6 x7 x8 x9 x10 x11 x12 x13 x14 (ix2 r q) = Cert.RowSpec.layerNorm (fun k => val_main_v85 (F := Ideal) x0 x1 x2 x3 x4 x5 x6 x7 x8 x9 x10 x11 x12 (ix2 r k)) (fun q' => x13 (ix1 q')) (fun q' => x14 (ix1 q')) q := by
  rw [val_main_v109_apply, val_main_v106_apply, val_main_v103_apply, second_dev', val_main_v102_apply, root_rows, second_root,
    val_main_v105_apply, scale_rows, val_main_v104_apply, scale_row, val_main_v108_apply, shift_rows, val_main_v107_apply, shift_row]
  rfl

/-- Row `r` of the result is the node stage's second half of row `r` of the first normalised array. -/
theorem ref_second (r : Fin 100000) (q : Fin 128) :
    val_main_v109 (F := Ideal) x0 x1 x2 x3 x4 x5 x6 x7 x8 x9 x10 x11 x12 x13 x14 (ix2 r q)
      = Cert.RowSpec.secondNorm (fun k => val_main_v75 (F := Ideal) x0 x1 x2 x3 x4 x5 x6 x11 x12 (ix2 r k)) (fun k j => x7 (ix2 k j)) (fun j => x8 (ix1 j)) (fun j q' => x9 (ix2 j q')) (fun q' => x10 (ix1 q')) (fun q' => x13 (ix1 q')) (fun q' => x14 (ix1 q')) q := by
  rw [second_norm]
  have e : (fun k => val_main_v85 (F := Ideal) x0 x1 x2 x3 x4 x5 x6 x7 x8 x9 x10 x11 x12 (ix2 r k)) = fun q' => val_main_v75 (F := Ideal) x0 x1 x2 x3 x4 x5 x6 x11 x12 (ix2 r q') + Cert.RowSpec.affine (Cert.RowSpec.hidden (fun k => val_main_v75 (F := Ideal) x0 x1 x2 x3 x4 x5 x6 x11 x12 (ix2 r k)) (fun k j => x7 (ix2 k j)) (fun j => x8 (ix1 j))) (fun j q' => x9 (ix2 j q')) (fun q' => x10 (ix1 q')) q' :=
    funext fun k => second_residual x0 x1 x2 x3 x4 x5 x6 x7 x8 x9 x10 x11 x12 r k
  rw [e]
  rfl

end Cert.RefStages

end
-- ==== Proof.RefNode.lean ====
/-
  The reference's result is the node row function of its input, its aggregated array and its degree factors: the second
  half of the node stage applied to the first.
-/
import proofs.«170928_j38603166057018_1_alg».proof.Proof.RefNodeA
import proofs.«170928_j38603166057018_1_alg».proof.Proof.RefNodeB

noncomputable section

namespace Cert.RefStages

open Cert.ReferenceIdeal Cert.ReferenceIdeal.Gen Cert.ReferenceIdeal.Read
open Idealize.ShloMosaic Idealize.ShloMosaic.TcCoe Idealize.ShloMosaic.ValueIdx

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x512, .f32⟩ : BufTy).Contents (Elt Ideal)) (x8 : (⟨S512, .f32⟩ : BufTy).Contents (Elt Ideal))
  (x9 : (⟨S512x128, .f32⟩ : BufTy).Contents (Elt Ideal)) (x10 x11 x12 x13 x14 : (⟨S128, .f32⟩ : BufTy).Contents (Elt Ideal))

/-- The reference's result array is the node row function of the input array, the aggregated array, the node degree
    factors and the weights, biases, scales and shifts. -/
theorem ref_node :
    val_main_v109 (F := Ideal) x0 x1 x2 x3 x4 x5 x6 x7 x8 x9 x10 x11 x12 x13 x14
      = Cert.RowSpec.nodeArr x0 (val_main_v44 (F := Ideal) x0 x1 x2 x3 x4) (val_main_v12 (F := Ideal) x1) x5 x6 x7 x8 x9 x10 x11 x12 x13 x14 := by
  funext i
  obtain ⟨r, q, rfl⟩ : ∃ (r : Fin 100000) (q : Fin 128), i = ix2 r q := ⟨i 0, i 1, eq_ix2 i⟩
  rw [ref_second]
  have e : (fun k => val_main_v75 (F := Ideal) x0 x1 x2 x3 x4 x5 x6 x11 x12 (ix2 r k)) = Cert.RowSpec.firstNorm (fun k => x0 (ix2 r k)) (fun k => val_main_v44 (F := Ideal) x0 x1 x2 x3 x4 (ix2 r k)) (val_main_v12 (F := Ideal) x1 (ix2 r (0 : Fin 1))) (fun k q' => x5 (ix2 k q')) (fun q' => x6 (ix1 q')) (fun q' => x11 (ix1 q')) (fun q' => x12 (ix1 q')) :=
    funext fun k => ref_first x0 x1 x2 x3 x4 x5 x6 x11 x12 r k
  rw [e]
  rfl

end Cert.RefStages

end
-- ==== Proof.NodeExit.lean ====
/-
  The result array the second region leaves is the reference's result.

  The region leaves the node row function of the arrays it was entered with; those are the input and weight arguments,
  the bias, scale and shift arguments as rows, and the reference's own stages of the arguments (the node degree factors,
  and the aggregated array, given that the hyperedge array the first region left is the reference's); and the
  reference's result is that same row function of them.
-/
import proofs.«170928_j38603166057018_1_alg».proof.Proof.NodeArray
import proofs.«170928_j38603166057018_1_alg».proof.Proof.HostEntry1
import proofs.«170928_j38603166057018_1_alg».proof.Proof.HyperExit
import proofs.«170928_j38603166057018_1_alg».proof.Proof.RefNode

set_option maxRecDepth 16384

noncomputable section

namespace Cert.KernelIdeal.HostValue

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the second region's exit the result array holds the reference's result of this program's arguments. -/
theorem node_exit (c : Dev nD) :
    (W4 m ρ c (Proc.devRef .tc main_v48) : S100000x128.Idx → EReal)
      = Cert.ReferenceIdeal.Read.val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (W4_arr m ρ c 13).trans ?_
  refine (Cert.KernelIdeal.NodeValue.node_array (V3 m ρ) c).trans ?_
  have r41 : (fun j : S128.Idx => Cert.KernelIdeal.NodeValue.b2Arr (V3 m ρ) c (ix2 (0 : Fin 1) (j 0)))
      = ((m ((c.tc : Thread nD τ).loc main_arg6)) : S128.Idx → EReal) :=
    funext fun j => (row41_entry m ρ c (j 0)).trans (congrArg _ (eq_ix1 j).symm)
  have r42 : (fun j : S512.Idx => Cert.KernelIdeal.NodeValue.b3Arr (V3 m ρ) c (ix2 (0 : Fin 1) (j 0)))
      = ((m ((c.tc : Thread nD τ).loc main_arg8)) : S512.Idx → EReal) :=
    funext fun j => (row42_entry m ρ c (j 0)).trans (congrArg _ (eq_ix1 j).symm)
  have r43 : (fun j : S128.Idx => Cert.KernelIdeal.NodeValue.b4Arr (V3 m ρ) c (ix2 (0 : Fin 1) (j 0)))
      = ((m ((c.tc : Thread nD τ).loc main_arg10)) : S128.Idx → EReal) :=
    funext fun j => (row43_entry m ρ c (j 0)).trans (congrArg _ (eq_ix1 j).symm)
  have r44 : (fun j : S128.Idx => Cert.KernelIdeal.NodeValue.g1Arr (V3 m ρ) c (ix2 (0 : Fin 1) (j 0)))
      = ((m ((c.tc : Thread nD τ).loc main_arg11)) : S128.Idx → EReal) :=
    funext fun j => (row44_entry m ρ c (j 0)).trans (congrArg _ (eq_ix1 j).symm)
  have r45 : (fun j : S128.Idx => Cert.KernelIdeal.NodeValue.s1Arr (V3 m ρ) c (ix2 (0 : Fin 1) (j 0)))
      = ((m ((c.tc : Thread nD τ).loc main_arg12)) : S128.Idx → EReal) :=
    funext fun j => (row45_entry m ρ c (j 0)).trans (congrArg _ (eq_ix1 j).symm)
  have r46 : (fun j : S128.Idx => Cert.KernelIdeal.NodeValue.g2Arr (V3 m ρ) c (ix2 (0 : Fin 1) (j 0)))
      = ((m ((c.tc : Thread nD τ).loc main_arg13)) : S128.Idx → EReal) :=
    funext fun j => (row46_entry m ρ c (j 0)).trans (congrArg _ (eq_ix1 j).symm)
  have r47 : (fun j : S128.Idx => Cert.KernelIdeal.NodeValue.s2Arr (V3 m ρ) c (ix2 (0 : Fin 1) (j 0)))
      = ((m ((c.tc : Thread nD τ).loc main_arg14)) : S128.Idx → EReal) :=
    funext fun j => (row47_entry m ρ c (j 0)).trans (congrArg _ (eq_ix1 j).symm)
  show Cert.RowSpec.nodeArr (V3 m ρ c main_arg0) (V3 m ρ c main_v40) (V3 m ρ c main_v12) (V3 m ρ c main_arg5) _
    (V3 m ρ c main_arg7) _ (V3 m ρ c main_arg9) _ _ _ _ _ = _
  rw [r41, r42, r43, r44, r45, r46, r47, arg0_entry m ρ c, node_aggregate_entry m ρ c (hyper_exit m ρ c),
    node_degree_entry m ρ c, arg5_entry m ρ c, arg7_entry m ρ c, arg9_entry m ρ c]
  exact (Cert.RefStages.ref_node _ _ _ _ _ _ _ _ _ _ _ _ _ _ _).symm

end Cert.KernelIdeal.HostValue

end
-- ==== Proof.lean ====
/-
  The certificate: a hypergraph convolution block, tiled over row blocks by two kernels, against its plain reference,
  over the extended reals.

  Both programs first form, on the host, the node and hyperedge degree factors (reciprocal square roots of the degrees
  clamped below by one) and the array of gathered, scatter-added rows of the degree-scaled input. The kernel then
  computes the hyperedge array `(raw · ch) W₁ + b₁` in ten row blocks where the reference computes it whole; both
  gather and scatter-add it back to the nodes by the same host operations; and the kernel computes, in a hundred row
  blocks, what the reference computes whole: `h₁ = LN(h + (raw₂ · cn) W₂ + b₂)`, `out = LN(h₁ + max(h₁ W₃ + b₃, 0) W₄ + b₄)`.
  Every output row depends only on the same row of the row-blocked operands, so a row of a block is a row of the whole
  array: each region leaves the whole-array row function of what it read, and those are the reference's own stages.
  The gathers and scatter-adds are never opened: both sides apply the same ones to equal operands. No law beyond the
  reading of a matrix product and of a lane sum as finite sums is used, so the inputs' finiteness is never needed.

  The frames are the generated frame certificates (for the two kernel programs through copies of the launch and frame
  modules); `preserves` has no entry to state; `algebraic` takes the kernel's run with its result array named and the
  reference's generated run, both ending at the reference's result stage of the shared arguments.
-/
import proofs.«170928_j38603166057018_1_alg».proof.Defs
import proofs.«170928_j38603166057018_1_alg».proof.Proof.Gen.Kernel
import proofs.«170928_j38603166057018_1_alg».proof.Proof.KernelFrameP
import proofs.«170928_j38603166057018_1_alg».proof.Proof.Gen.KernelIdeal
import proofs.«170928_j38603166057018_1_alg».proof.Proof.KernelIdealFrameP
import proofs.«170928_j38603166057018_1_alg».proof.Proof.KernelIdealRun
import proofs.«170928_j38603166057018_1_alg».proof.Proof.NodeExit
import proofs.«170928_j38603166057018_1_alg».proof.Proof.Gen.ReferenceIdeal
import proofs.«170928_j38603166057018_1_alg».proof.Proof.Gen.ReferenceIdeal.Run
import proofs.«170928_j38603166057018_1_alg».proof.Proof.Gen.ReferenceIdeal.Read
import proofs.«170928_j38603166057018_1_alg».proof.Proof.Gen.Pre_finite_inputs
import Idealize.ShloMosaic.Adequacy
import Idealize.ShloMosaic.Init

noncomputable section

namespace Cert.Proof

open Idealize.ShloMosaic Idealize.SL.Sem

/-- Run from memories that agree on the arguments, the idealized kernel and the idealized reference both end with the
    reference's result stage of those arguments in their result arrays, the arguments unchanged. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.HostValue.node_exit m ρ c), (h c).2⟩)
      (Cert.KernelIdeal.GenP.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v109_eq, h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.Value.run (F := Ideal) m ρ),
  trivial,
  algebraic⟩

end Cert.Proof

end
